-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x2048x16 : Shape := ⟨3, ![2048, 2048, 16]⟩
abbrev S2048x16 : Shape := ⟨2, ![2048, 16]⟩
abbrev S16x2048 : Shape := ⟨2, ![16, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x2048x16 : S_.BroadcastsInDim S2048x2048x16 (![] : Fin 0 → Fin S2048x2048x16.rank)
  reducesTo_S2048x2048x16_S_d0_1_2 : S2048x2048x16.ReducesTo [0, 1, 2] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S16x2048 .f32) (main_arg5 : FVec F S2048x2048 .f32) (main_arg6 : FVec F S2048 .f32) (main_arg7 : FVec F S2048 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S16x2048 .f32 := Host.absf main_arg4
  let main_cst_6 : FVec F S_ .f32 := constant S_ .f32 0x7F800000#32
  let main_v20 : FVec F S16x2048 .f32 := broadcastInDim S16x2048 ![] bcast_S_S16x2048 main_cst_6
  let main_v21 : IVec S16x2048 1 := cmpf .olt main_v19 main_v20
  let main_c_7 : IVec S_ 1 := constantI S_ 1 1#1
  let main_v22 : IVec S_ 1 := (fun x v => Host.reduce IntOp.andi x v reducesTo_S16x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S2048x2048 .f32) (main_arg1 : FVec F S2048x2048x16 .f32) (main_arg2 : FVec F S2048x16 .f32) (main_arg3 : FVec F S16x2048 .f32) (main_arg4 : FVec F S16x2048 .f32) (main_arg5 : FVec F S2048x2048 .f32) (main_arg6 : FVec F S2048 .f32) (main_arg7 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048x16 .f32 := Host.absf main_arg1
  let main_cst_0 : FVec F S_ .f32 := constant S_ .f32 0x7F800000#32
  let main_v5 : FVec F S2048x2048x16 .f32 := broadcastInDim S2048x2048x16 ![] bcast_S_S2048x2048x16 main_cst_0
  let main_v6 : IVec S2048x2048x16 1 := cmpf .olt main_v4 main_v5
  let main_c_1 : IVec S_ 1 := constantI S_ 1 1#1
  let main_v7 : IVec S_ 1 := (fun x v => Host.reduce IntOp.andi x v reducesTo_S2048x2048x16_S_d0_1_2 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_arg5 main_arg6 main_arg7 main_v13 main_v16
-- ==== Kernel.lean ====
abbrev S2048x2048 : Shape := ⟨2, ![2048, 2048]⟩
abbrev S2048x2048x16 : Shape := ⟨3, ![2048, 2048, 16]⟩
abbrev S2048x16 : Shape := ⟨2, ![2048, 16]⟩
abbrev S16x2048 : Shape := ⟨2, ![16, 2048]⟩
abbrev S2048 : Shape := ⟨1, ![2048]⟩
abbrev S1x2048 : Shape := ⟨2, ![1, 2048]⟩
abbrev S256x2048 : Shape := ⟨2, ![256, 2048]⟩
abbrev S256x16 : Shape := ⟨2, ![256, 16]⟩
abbrev S64x128 : Shape := ⟨2, ![64, 128]⟩
abbrev S64x128x16 : Shape := ⟨3, ![64, 128, 16]⟩
abbrev S128x16 : Shape := ⟨2, ![128, 16]⟩
abbrev S64x16 : Shape := ⟨2, ![64, 16]⟩
abbrev S1x128 : Shape := ⟨2, ![1, 128]⟩
abbrev S64x128x1 : Shape := ⟨3, ![64, 128, 1]⟩
abbrev S1x128x16 : Shape := ⟨3, ![1, 128, 16]⟩
abbrev S64x1x16 : Shape := ⟨3, ![64, 1, 16]⟩

abbrev nBuf : Space → Nat
  | .hbm => 17
  | .vmem => 30
  | .smem => 0
  | _ => 0

abbrev bufTy : (tb : Table) → Fin (tcTables nBuf tb) → BufTy
  | .hbm, ⟨0, _⟩ => ⟨S2048x2048, .f32⟩
  | .hbm, ⟨1, _⟩ => ⟨S2048x2048x16, .f32⟩
  | .hbm, ⟨2, _⟩ => ⟨S2048x16, .f32⟩
  | .hbm, ⟨3, _⟩ => ⟨S16x2048, .f32⟩
  | .hbm, ⟨4, _⟩ => ⟨S16x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S2048x16, .f32⟩
  | .hbm, ⟨10, _⟩ => ⟨S1x2048, .f32⟩
  | .hbm, ⟨11, _⟩ => ⟨S1x2048, .f32⟩
  | .hbm, ⟨12, _⟩ => ⟨S2048x2048, .f32⟩
  | .hbm, ⟨13, _⟩ => ⟨S2048x16, .f32⟩
  | .hbm, ⟨14, _⟩ => ⟨S2048x16, .f32⟩
  | .hbm, ⟨15, _⟩ => ⟨S2048x2048, .f32⟩
  | .hbm, ⟨16, _⟩ => ⟨S2048x2048x16, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S64x128, .f32⟩
  | .local _ .vmem, ⟨13, _⟩ => ⟨S64x128, .f32⟩
  | .local _ .vmem, ⟨14, _⟩ => ⟨S64x128x16, .f32⟩
  | .local _ .vmem, ⟨15, _⟩ => ⟨S64x128x16, .f32⟩
  | .local _ .vmem, ⟨16, _⟩ => ⟨S128x16, .f32⟩
  | .local _ .vmem, ⟨17, _⟩ => ⟨S128x16, .f32⟩
  | .local _ .vmem, ⟨18, _⟩ => ⟨S64x16, .f32⟩
  | .local _ .vmem, ⟨19, _⟩ => ⟨S64x16, .f32⟩
  | .local _ .vmem, ⟨20, _⟩ => ⟨S64x16, .f32⟩
  | .local _ .vmem, ⟨21, _⟩ => ⟨S64x16, .f32⟩
  | .local _ .vmem, ⟨22, _⟩ => ⟨S64x128, .f32⟩
  | .local _ .vmem, ⟨23, _⟩ => ⟨S64x128, .f32⟩
  | .local _ .vmem, ⟨24, _⟩ => ⟨S1x128, .f32⟩
  | .local _ .vmem, ⟨25, _⟩ => ⟨S1x128, .f32⟩
  | .local _ .vmem, ⟨26, _⟩ => ⟨S64x128, .f32⟩
  | .local _ .vmem, ⟨27, _⟩ => ⟨S64x128, .f32⟩
  | .local _ .vmem, ⟨28, _⟩ => ⟨S64x128x16, .f32⟩
  | .local _ .vmem, ⟨29, _⟩ => ⟨S64x128x16, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![32, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x128x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S16x2048_S16x2048_0_0 : ∀ a, (![0, 0] : Fin 2 → Nat) a + S16x2048.size a ≤ S16x2048.size a
  h_S16x2048 : 0 < S16x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x16_S256x16_0_0 : ∀ a, (![0, 0] : Fin 2 → Nat) a + S256x16.size a ≤ S256x16.size a
  h_S256x16 : 0 < S256x16.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x128x16_S64x128x16_0_0_0 : ∀ a, (![0, 0, 0] : Fin 3 → Nat) a + S64x128x16.size a ≤ S64x128x16.size a
  h_S64x128x16 : 0 < S64x128x16.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S64x128_S64x128x1 : S64x128.ShapeCasts S64x128x1
  shapeCasts_S128x16_S1x128x16 : S128x16.ShapeCasts S1x128x16
  broadcasts_S64x128x1_S64x128x16 : S64x128x1.Broadcasts S64x128x16
  broadcasts_S1x128x16_S64x128x16 : S1x128x16.Broadcasts S64x128x16
  shapeCasts_S64x16_S64x1x16 : S64x16.ShapeCasts S64x1x16
  broadcasts_S64x1x16_S64x128x16 : S64x1x16.Broadcasts S64x128x16
  reduces_S64x128x16_S64x128 : S64x128x16.Reduces [2] S64x128
  broadcasts_S1x128_S64x128 : S1x128.Broadcasts S64x128
  dot_S256x2048_S2048x2048_S256x2048_1_1_0_0_n_n_wf : DotDims.WF S256x2048 S2048x2048 S256x2048 [1] [1] [0] [0] [] []
  dot_S256x2048_S16x2048_S256x16_1_1_0_0_n_n_wf : DotDims.WF S256x2048 S16x2048 S256x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .f32 = 32 ∨ (Rect.block (s := S16x2048) S16x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S2048x16.size a
  hwx0_6 : ∀ i : grid0.Coords, EltTy.bits .f32 = 32 ∨ (Rect.block (s := S2048x16) S256x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S2048x16.size a
  hwx0_7 : ∀ i : grid0.Coords, EltTy.bits .f32 = 32 ∨ (Rect.block (s := S2048x16) S256x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S2048x2048.size a
  hwx1_0 : ∀ i : grid1.Coords, EltTy.bits .f32 = 32 ∨ (Rect.block (s := S2048x2048) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128x16.size a ≤ S2048x2048x16.size a
  hwx1_1 : ∀ i : grid1.Coords, EltTy.bits .f32 = 32 ∨ (Rect.block (s := S2048x2048x16) S64x128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S2048x16.size a
  hwx1_2 : ∀ i : grid1.Coords, EltTy.bits .f32 = 32 ∨ (Rect.block (s := S2048x16) S128x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S2048x16.size a
  hwx1_3 : ∀ i : grid1.Coords, EltTy.bits .f32 = 32 ∨ (Rect.block (s := S2048x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S2048x16.size a
  hwx1_4 : ∀ i : grid1.Coords, EltTy.bits .f32 = 32 ∨ (Rect.block (s := S2048x16) S64x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S2048x2048.size a
  hwx1_5 : ∀ i : grid1.Coords, EltTy.bits .f32 = 32 ∨ (Rect.block (s := S2048x2048) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x2048.size a
  hwx1_6 : ∀ i : grid1.Coords, EltTy.bits .f32 = 32 ∨ (Rect.block (s := S1x2048) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S2048x2048.size a
  hwx1_7 : ∀ i : grid1.Coords, EltTy.bits .f32 = 32 ∨ (Rect.block (s := S2048x2048) S64x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x128x16.size a ≤ S2048x2048x16.size a
  hwx1_8 : ∀ i : grid1.Coords, EltTy.bits .f32 = 32 ∨ (Rect.block (s := S2048x2048x16) S64x128x16.size (cc1_transform_8 i) (hinb1_8 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S16x2048_S256x16_1_1_0_0_n_n : DotDims S256x2048 S16x2048 S256x16 where
  lhsContracting := [1]
  rhsContracting := [1]
  lhsNonContracting := [0]
  rhsNonContracting := [0]
  lhsBatch := []
  rhsBatch := []
  wf := dot_S256x2048_S16x2048_S256x16_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S256x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x128x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S64x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_2) S64x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S64x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_0) S64x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5_1) S64x128x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S2048x2048x16 : Shape := ⟨3, ![2048, 2048, 16]⟩
abbrev S2048x16 : Shape := ⟨2, ![2048, 16]⟩
abbrev S16x2048 : Shape := ⟨2, ![16, 2048]⟩
abbrev S2048 : Shape := ⟨1, ![2048]⟩
abbrev S1x2048 : Shape := ⟨2, ![1, 2048]⟩
abbrev S_ : Shape := ⟨0, ![]⟩
abbrev S2048x2048x1 : Shape := ⟨3, ![2048, 2048, 1]⟩
abbrev S1x2048x16 : Shape := ⟨3, ![1, 2048, 16]⟩
abbrev S2048x1x16 : Shape := ⟨3, ![2048, 1, 16]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048x16, .f32⟩
  | .hbm, ⟨2, _⟩ => ⟨S2048x16, .f32⟩
  | .hbm, ⟨3, _⟩ => ⟨S16x2048, .f32⟩
  | .hbm, ⟨4, _⟩ => ⟨S16x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .i1⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048x1, .f32⟩
  | .hbm, ⟨34, _⟩ => ⟨S1x2048x16, .f32⟩
  | .hbm, ⟨35, _⟩ => ⟨S2048x2048x16, .f32⟩
  | .hbm, ⟨36, _⟩ => ⟨S2048x2048x16, .f32⟩
  | .hbm, ⟨37, _⟩ => ⟨S2048x2048x16, .f32⟩
  | .hbm, ⟨38, _⟩ => ⟨S2048x2048x16, .f32⟩
  | .hbm, ⟨39, _⟩ => ⟨S2048x2048x1, .f32⟩
  | .hbm, ⟨40, _⟩ => ⟨S2048x1x16, .f32⟩
  | .hbm, ⟨41, _⟩ => ⟨S2048x2048x16, .f32⟩
  | .hbm, ⟨42, _⟩ => ⟨S2048x2048x16, .f32⟩
  | .hbm, ⟨43, _⟩ => ⟨S2048x2048x16, .f32⟩
  | .hbm, ⟨44, _⟩ => ⟨S2048x2048x16, .f32⟩
  | .hbm, ⟨45, _⟩ => ⟨S2048x2048x1, .f32⟩
  | .hbm, ⟨46, _⟩ => ⟨S2048x2048x16, .f32⟩
  | .hbm, ⟨47, _⟩ => ⟨S2048x2048x16, .f32⟩
  | .hbm, ⟨48, _⟩ => ⟨S2048x2048x16, .f32⟩
  | .hbm, ⟨49, _⟩ => ⟨S2048x1x16, .f32⟩
  | .hbm, ⟨50, _⟩ => ⟨S2048x2048x16, .f32⟩
  | .hbm, ⟨51, _⟩ => ⟨S2048x2048x16, .f32⟩
  | .hbm, ⟨52, _⟩ => ⟨S_, .f32⟩
  | .hbm, ⟨53, _⟩ => ⟨S2048x2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  transposes_S16x2048_S2048x16_1_0 : S16x2048.Transposes [1, 0] S2048x16
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x16_S1x2048x16_1_2 : S2048x16.BroadcastsInDim S1x2048x16 (![1, 2] : Fin 2 → Fin S1x2048x16.rank)
  bcast_S2048x2048x1_S2048x2048x16_0_1_2 : S2048x2048x1.BroadcastsInDim S2048x2048x16 (![0, 1, 2] : Fin 3 → Fin S2048x2048x16.rank)
  bcast_S1x2048x16_S2048x2048x16_0_1_2 : S1x2048x16.BroadcastsInDim S2048x2048x16 (![0, 1, 2] : Fin 3 → Fin S2048x2048x16.rank)
  bcast_S2048x16_S2048x1x16_0_2 : S2048x16.BroadcastsInDim S2048x1x16 (![0, 2] : Fin 2 → Fin S2048x1x16.rank)
  bcast_S2048x1x16_S2048x2048x16_0_1_2 : S2048x1x16.BroadcastsInDim S2048x2048x16 (![0, 1, 2] : Fin 3 → Fin S2048x2048x16.rank)
  reducesTo_S2048x2048x16_S2048x2048_d2 : S2048x2048x16.ReducesTo [2] S2048x2048
  h_S_ : 0 < S_.numel
  dot_S2048x2048_S2048x16_S2048x16_1_0_0_1_n_n_wf : DotDims.WF S2048x2048 S2048x16 S2048x16 [1] [0] [0] [1] [] []
  dot_S2048x2048_S2048x2048_S2048x2048_1_0_0_1_n_n_wf : DotDims.WF S2048x2048 S2048x2048 S2048x2048 [1] [0] [0] [1] [] []

variable [Facts₀]

def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Spec.lean ====
/-
  The specification of the selective state-space step, as functions of whole arrays on the extended reals.

  With x : [B, D], W_Δ : [D, D], W_B, W_C : [S, D], b_Δ, d : [D], A_log : [D, S] and the previous state h : [B, D, S]
  (B = D = 2048, S = 16):

    Δ[b, d]     = softplus (Σ_k x[b, k] · W_Δ[d, k] + b_Δ[d])          softplus z = max z 0 + log (1 + e^{-|z|})
    Bt[b, s]    = Σ_k x[b, k] · W_B[s, k]          Ct[b, s] = Σ_k x[b, k] · W_C[s, k]
    A[d, s]     = -(e^{A_log[d, s]})
    h'[b, d, s] = e^{Δ[b, d] · A[d, s]} · h[b, d, s] + (Δ[b, d] · Bt[b, s]) · x[b, d]
    y[b, d]     = Σ_s h'[b, d, s] · Ct[b, s] + d[d] · x[b, d]

  The functions come in two layers, because the kernel computes in two launches: `deltaOf` / `projOf` are what the
  first launch leaves (of x, the weights and the bias row), `stateOf` / `yOf` what the second leaves (of x, h, A, Bt,
  Ct, Δ and the row d); `stateG` / `yG` compose them over the program's eight arguments.
-/
import Idealize.ShloMosaic.PureOps.Ideal
import Idealize.ShloMosaic.PureOps.Ideal.Laws
import Idealize.ShloMosaic.Lib.ValueIdx

noncomputable section

namespace Cert.Ssm

open Idealize.ShloMosaic Idealize.ShloMosaic.ValueIdx

/-- [2048, 2048]: x, W_Δ, Δ, y. -/
abbrev Sbd : Shape := ⟨2, ![2048, 2048]⟩
/-- [2048, 2048, 16]: the state. -/
abbrev Sbds : Shape := ⟨3, ![2048, 2048, 16]⟩
/-- [2048, 16]: A_log, A, Bt, Ct. -/
abbrev Sds : Shape := ⟨2, ![2048, 16]⟩
/-- [16, 2048]: W_B, W_C. -/
abbrev Ssd : Shape := ⟨2, ![16, 2048]⟩
/-- [2048]: b_Δ, d. -/
abbrev Sd : Shape := ⟨1, ![2048]⟩
/-- [1, 2048]: b_Δ, d as rows. -/
abbrev Srow : Shape := ⟨2, ![1, 2048]⟩

/-- softplus z = max z 0 + log (1 + e^{-|z|}), with |z| = max z (-z). -/
def softplus (z : EReal) : EReal := max z 0 + Ideal.log1p (Ideal.exp (-(max z (-z))))

/-- A vector of length 2048 as a [1, 2048] row. -/
def row (v : Sd.Idx → EReal) : Srow.Idx → EReal := fun j => v (ix1 (j 1))

/-- A = -(e^{A_log}). -/
def negExp (alog : Sds.Idx → EReal) : Sds.Idx → EReal := fun j => -(Ideal.exp (alog j))

/-- Σ_k x[b, k] · w[n, k]: x against the rows of a weight matrix w : [N, 2048]. -/
def dotRow {N : Nat} (x : Sbd.Idx → EReal) (w : (⟨2, ![N, 2048]⟩ : Shape).Idx → EReal) (b : Fin 2048) (n : Fin N) : EReal :=
  ∑ k : Fin 2048, x (ix2 b k) * w (ix2 n k)

/-- Bt = x · W_Bᵀ (and Ct = x · W_Cᵀ): [2048, 16]. -/
def projOf (x : Sbd.Idx → EReal) (w : Ssd.Idx → EReal) : Sds.Idx → EReal := fun j => dotRow x w (j 0) (j 1)

/-- Δ = softplus (x · W_Δᵀ + b_Δ), the bias given as a row. -/
def deltaOf (x wd : Sbd.Idx → EReal) (brow : Srow.Idx → EReal) : Sbd.Idx → EReal :=
  fun j => softplus (dotRow x wd (j 0) (j 1) + brow (ix2 0 (j 1)))

/-- h'[b, d, s] = e^{Δ[b, d] · A[d, s]} · h[b, d, s] + (Δ[b, d] · Bt[b, s]) · x[b, d], at coordinates. -/
def stateAt (x : Sbd.Idx → EReal) (h : Sbds.Idx → EReal) (A Bt : Sds.Idx → EReal) (Δ : Sbd.Idx → EReal)
    (b d : Fin 2048) (s : Fin 16) : EReal :=
  Ideal.exp (Δ (ix2 b d) * A (ix2 d s)) * h (ix3 b d s) + (Δ (ix2 b d) * Bt (ix2 b s)) * x (ix2 b d)

/-- The new state as an array. -/
def stateOf (x : Sbd.Idx → EReal) (h : Sbds.Idx → EReal) (A Bt : Sds.Idx → EReal) (Δ : Sbd.Idx → EReal) : Sbds.Idx → EReal :=
  fun j => stateAt x h A Bt Δ (j 0) (j 1) (j 2)

/-- y[b, d] = Σ_s h'[b, d, s] · Ct[b, s] + d[d] · x[b, d], the skip weights given as a row. -/
def yOf (x : Sbd.Idx → EReal) (h : Sbds.Idx → EReal) (A Bt Ct : Sds.Idx → EReal) (Δ : Sbd.Idx → EReal)
    (drow : Srow.Idx → EReal) : Sbd.Idx → EReal :=
  fun j => (∑ s : Fin 16, stateAt x h A Bt Δ (j 0) (j 1) s * Ct (ix2 (j 0) s)) + drow (ix2 0 (j 1)) * x (ix2 (j 0) (j 1))

/-- The new state of the program's arguments. -/
def stateG (x : Sbd.Idx → EReal) (h : Sbds.Idx → EReal) (alog : Sds.Idx → EReal) (wb : Ssd.Idx → EReal)
    (wd : Sbd.Idx → EReal) (bd : Sd.Idx → EReal) : Sbds.Idx → EReal :=
  stateOf x h (negExp alog) (projOf x wb) (deltaOf x wd (row bd))

/-- The output y of the program's arguments. -/
def yG (x : Sbd.Idx → EReal) (h : Sbds.Idx → EReal) (alog : Sds.Idx → EReal) (wb wc : Ssd.Idx → EReal)
    (wd : Sbd.Idx → EReal) (bd dp : Sd.Idx → EReal) : Sbd.Idx → EReal :=
  yOf x h (negExp alog) (projOf x wb) (projOf x wc) (deltaOf x wd (row bd)) (row dp)

/-! ## Scalar facts both programs' softplus needs -/

/-- No extended real differs from itself: the NaN test `a ≠ a` never fires. -/
theorem cmp_one_self (a : EReal) : Ideal.cmp .one a a = 0#1 := by simp [Ideal.cmp]
theorem cmp_une_self (a : EReal) : Ideal.cmp .une a a = 0#1 := by simp [Ideal.cmp]

/-- The scalar softplus as the kernel spells it: the guard dead, `z - 0 = z`, `0 - |z| = -|z|`. -/
theorem softplus_kernel (z : EReal) :
    Scalar.select (Ideal.cmp .one (z - 0) (z - 0)) (z + 0) (max z 0 + Ideal.log1p (Ideal.exp (0 - max (z - 0) (-(z - 0))))) = softplus z := by
  rw [cmp_one_self, select_zero, sub_zero, zero_sub]; rfl

/-- The scalar softplus as the reference spells it. -/
theorem softplus_host (z : EReal) :
    Scalar.select (Ideal.cmp .une (z - 0) (z - 0)) (z + 0) (max z 0 + Ideal.log1p (Ideal.exp (-(max (z - 0) (-(z - 0)))))) = softplus z := by
  rw [cmp_une_self, select_zero, sub_zero]; rfl

end Cert.Ssm

end
-- ==== Proof.Region0.lean ====
/-
  What the first launch leaves, as whole arrays on the extended reals.

  The launch runs over eight points; point t reads rows 256·t … 256·t + 255 of x : [2048, 2048] together with the whole of
  W_Δ : [2048, 2048], W_B, W_C : [16, 2048] and the bias row b_Δ : [1, 2048], and writes the same rows of three arrays:

    Δ[b, d]  = softplus (Σ_k x[b, k] · W_Δ[d, k] + b_Δ[d])
    Bt[b, s] = Σ_k x[b, k] · W_B[s, k]          Ct[b, s] = Σ_k x[b, k] · W_C[s, k]

  The module proves, for any contents the launch is entered with, that after the eight points the three arrays are
  `deltaOf`, `projOf` and `projOf` of those contents (`delta_arr`, `bt_arr`, `ct_arr`). The steps: each contraction
  into a zero accumulator read at an index is the plain sum over k; the body's softplus at an index is the scalar
  softplus of that sum plus the bias; a block's element (p, ·) is the array's element (256·t + p, ·), the weights' and
  the bias row's blocks being the whole arrays; so what point t writes back is block t of the array function; and the
  eight blocks cover the rows, row r lying in the block of point r / 256.
-/
import proofs.«140655_j73134703116522_1_alg».proof.Proof.Gen.KernelIdeal.Frame
import proofs.«140655_j73134703116522_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## The two contractions at an index -/

theorem lhs_wd_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs_wd_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem rhs_wd_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs_wd_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- The [256,2048] × [2048,2048] contraction into a zero accumulator, at (p, q): Σ_k l[p,k] · r[q,k]. -/
theorem matmul_wd_apply (l : FVec Ideal S256x2048 .bf16) (r : FVec Ideal S2048x2048 .bf16) (p : Fin 256) (q : Fin 2048) :
    matmul dot_S256x2048_S2048x2048_S256x2048_1_1_0_0_n_n none l r (constant (F := Ideal) S256x2048 .f32 0x00000000#32) (ix2 p q)
      = ∑ k : Fin 2048, l (ix2 p k) * r (ix2 q k) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p q) ((ValueIdx.contrEquiv1 dot_S256x2048_S2048x2048_S256x2048_1_1_0_0_n_n 2048 rfl rfl).symm k) = ix2 p k := funext fun a => Fin.ext (by
    match a with
    | ⟨0, _⟩ => exact lhs_wd_0 _ _
    | ⟨1, _⟩ => exact (lhs_wd_1 _ _).trans hk)
  have er : dot_S256x2048_S2048x2048_S256x2048_1_1_0_0_n_n.rhsIdx (ix2 p q) ((ValueIdx.contrEquiv1 dot_S256x2048_S2048x2048_S256x2048_1_1_0_0_n_n 2048 rfl rfl).symm k) = ix2 q k := funext fun a => Fin.ext (by
    match a with
    | ⟨0, _⟩ => exact rhs_wd_0 _ _
    | ⟨1, _⟩ => exact (rhs_wd_1 _ _).trans hk)
  rw [el, er]

theorem lhs_proj_0 (i : S256x16.Idx) (q : dot_S256x2048_S16x2048_S256x16_1_1_0_0_n_n.contr.Idx) :
    (dot_S256x2048_S16x2048_S256x16_1_1_0_0_n_n.lhsIdx i q 0).val = (i 0).val := by
  unfold DotDims.lhsIdx
  rw [dif_neg (show ¬(0 : Fin S256x2048.rank) ∈ dot_S256x2048_S16x2048_S256x16_1_1_0_0_n_n.lhsBatch by decide), dif_pos (show (0 : Fin S256x2048.rank) ∈ dot_S256x2048_S16x2048_S256x16_1_1_0_0_n_n.lhsNonContracting by decide)]
  rfl
theorem lhs_proj_1 (i : S256x16.Idx) (q : dot_S256x2048_S16x2048_S256x16_1_1_0_0_n_n.contr.Idx) :
    (dot_S256x2048_S16x2048_S256x16_1_1_0_0_n_n.lhsIdx i q 1).val = (q ⟨0, by decide⟩).val :=
  dot_S256x2048_S16x2048_S256x16_1_1_0_0_n_n.lhsIdx_val_of_single rfl i q
theorem rhs_proj_0 (i : S256x16.Idx) (q : dot_S256x2048_S16x2048_S256x16_1_1_0_0_n_n.contr.Idx) :
    (dot_S256x2048_S16x2048_S256x16_1_1_0_0_n_n.rhsIdx i q 0).val = (i 1).val := by
  unfold DotDims.rhsIdx
  rw [dif_neg (show ¬(0 : Fin S16x2048.rank) ∈ dot_S256x2048_S16x2048_S256x16_1_1_0_0_n_n.rhsBatch by decide), dif_pos (show (0 : Fin S16x2048.rank) ∈ dot_S256x2048_S16x2048_S256x16_1_1_0_0_n_n.rhsNonContracting by decide)]
  rfl
theorem rhs_proj_1 (i : S256x16.Idx) (q : dot_S256x2048_S16x2048_S256x16_1_1_0_0_n_n.contr.Idx) :
    (dot_S256x2048_S16x2048_S256x16_1_1_0_0_n_n.rhsIdx i q 1).val = (q ⟨0, by decide⟩).val :=
  dot_S256x2048_S16x2048_S256x16_1_1_0_0_n_n.rhsIdx_val_of_single rfl i q

/-- The [256,2048] × [16,2048] contraction into a zero accumulator, at (p, s): Σ_k l[p,k] · r[s,k]. -/
theorem matmul_proj_apply (l : FVec Ideal S256x2048 .bf16) (r : FVec Ideal S16x2048 .bf16) (p : Fin 256) (s : Fin 16) :
    matmul dot_S256x2048_S16x2048_S256x16_1_1_0_0_n_n none l r (constant (F := Ideal) S256x16 .f32 0x00000000#32) (ix2 p s)
      = ∑ k : Fin 2048, l (ix2 p k) * r (ix2 s k) := by
  simp only [matmul]
  rw [Ideal.matmul_constant_zero_apply, ← Equiv.sum_comp (ValueIdx.contrEquiv1 dot_S256x2048_S16x2048_S256x16_1_1_0_0_n_n 2048 rfl rfl).symm]
  refine Finset.sum_congr rfl fun k _ => ?_
  have hk := ValueIdx.contrEquiv1_symm_val dot_S256x2048_S16x2048_S256x16_1_1_0_0_n_n 2048 rfl rfl k
  have el : dot_S256x2048_S16x2048_S256x16_1_1_0_0_n_n.lhsIdx (ix2 p s) ((ValueIdx.contrEquiv1 dot_S256x2048_S16x2048_S256x16_1_1_0_0_n_n 2048 rfl rfl).symm k) = ix2 p k := funext fun a => Fin.ext (by
    match a with
    | ⟨0, _⟩ => exact lhs_proj_0 _ _
    | ⟨1, _⟩ => exact (lhs_proj_1 _ _).trans hk)
  have er : dot_S256x2048_S16x2048_S256x16_1_1_0_0_n_n.rhsIdx (ix2 p s) ((ValueIdx.contrEquiv1 dot_S256x2048_S16x2048_S256x16_1_1_0_0_n_n 2048 rfl rfl).symm k) = ix2 s k := funext fun a => Fin.ext (by
    match a with
    | ⟨0, _⟩ => exact rhs_proj_0 _ _
    | ⟨1, _⟩ => exact (rhs_proj_1 _ _).trans hk)
  rw [el, er]

/-! ## The payloads at an index -/

/-- The bias row [1,2048] broadcast over the 256 rows, at (p, q): the row's entry q. -/
theorem bias_apply (x4 : Vec Ideal S1x2048 .f32) (p : Fin 256) (q : Fin 2048) :
    broadcastTo S256x2048 (shapeCast S1x2048 x4 shapeCasts_S1x2048_S1x2048) broadcasts_S1x2048_S256x2048 (ix2 p q) = x4 (ix2 0 q) := by
  rw [shapeCast_self]
  exact broadcastTo_apply x4 broadcasts_S1x2048_S256x2048 (ix2 p q) (ix2 0 q) (fun a => match a with
    | ⟨0, _⟩ => rfl
    | ⟨1, _⟩ => by show q.val = if (2048 : Nat) = 1 then 0 else q.val; rw [if_neg (by decide)])

/-- The Δ payload at (p, q): softplus of row p of the block against row q of the weights, plus the bias. -/
theorem pay_delta (x0 : Vec Ideal S256x2048 .f32) (x1 : Vec Ideal S2048x2048 .f32) (x4 : Vec Ideal S1x2048 .f32) (p : Fin 256) (q : Fin 2048) :
    k0_pay2 (F := Ideal) x0 x1 x4 (ix2 p q) = Cert.Ssm.softplus ((∑ k : Fin 2048, x0 (ix2 p k) * x1 (ix2 q k)) + x4 (ix2 0 q)) := by
  have hm := matmul_wd_apply (truncf .bf16 x0 bitsLt_bf16_f32) (truncf .bf16 x1 bitsLt_bf16_f32) p q
  have hb := bias_apply x4 p q
  have hz : matmul dot_S256x2048_S2048x2048_S256x2048_1_1_0_0_n_n none (truncf .bf16 x0 bitsLt_bf16_f32) (truncf .bf16 x1 bitsLt_bf16_f32) (constant (F := Ideal) S256x2048 .f32 0x00000000#32) (ix2 p q)
      + broadcastTo S256x2048 (shapeCast S1x2048 x4 shapeCasts_S1x2048_S1x2048) broadcasts_S1x2048_S256x2048 (ix2 p q)
      = (∑ k : Fin 2048, x0 (ix2 p k) * x1 (ix2 q k)) + x4 (ix2 0 q) := by
    rw [hm, hb]; rfl
  rw [← hz]
  unfold k0_pay2 k0_pay1
  simp only [select_apply, cmpf_apply, addf_apply, subf_apply, maximumf_apply, broadcast_apply, Ideal.ofBits_def, Ideal.ofBits_zero_f32, Ideal.cmpf_def]
  exact Cert.Ssm.softplus_kernel _

/-- The two projection payloads at (p, s): row p of the block against row s of the weights. -/
theorem pay_bt (x0 : Vec Ideal S256x2048 .f32) (x2 : Vec Ideal S16x2048 .f32) (p : Fin 256) (s : Fin 16) :
    k0_pay3 (F := Ideal) x0 x2 (ix2 p s) = ∑ k : Fin 2048, x0 (ix2 p k) * x2 (ix2 s k) := by
  unfold k0_pay3 k0_pay1
  exact matmul_proj_apply _ _ p s
theorem pay_ct (x0 : Vec Ideal S256x2048 .f32) (x3 : Vec Ideal S16x2048 .f32) (p : Fin 256) (s : Fin 16) :
    k0_pay4 (F := Ideal) x0 x3 (ix2 p s) = ∑ k : Fin 2048, x0 (ix2 p k) * x3 (ix2 s k) := by
  unfold k0_pay4 k0_pay1
  exact matmul_proj_apply _ _ p s

/-- The Δ payload of blocks that read the arrays X, W, b at row r is Δ of the arrays at (r, q). -/
theorem pay_delta_of (x0 : Vec Ideal S256x2048 .f32) (x1 : Vec Ideal S2048x2048 .f32) (x4 : Vec Ideal S1x2048 .f32)
    (X W : Cert.Ssm.Sbd.Idx → EReal) (b : Cert.Ssm.Srow.Idx → EReal) (p : Fin 256) (q r : Fin 2048)
    (h0 : ∀ k : Fin 2048, x0 (ix2 p k) = X (ix2 r k)) (h1 : ∀ k : Fin 2048, x1 (ix2 q k) = W (ix2 q k))
    (h4 : x4 (ix2 0 q) = b (ix2 0 q)) :
    k0_pay2 (F := Ideal) x0 x1 x4 (ix2 p q) = Cert.Ssm.deltaOf X W b (ix2 r q) := by
  rw [pay_delta, h4]
  show _ = Cert.Ssm.softplus ((∑ k : Fin 2048, X (ix2 r k) * W (ix2 q k)) + b (ix2 0 q))
  simp only [h0, h1]

/-- A projection payload of blocks that read the arrays X, W at row r is the projection at (r, s). -/
theorem pay_bt_of (x0 : Vec Ideal S256x2048 .f32) (x2 : Vec Ideal S16x2048 .f32)
    (X : Cert.Ssm.Sbd.Idx → EReal) (W : Cert.Ssm.Ssd.Idx → EReal) (p : Fin 256) (s : Fin 16) (r : Fin 2048)
    (h0 : ∀ k : Fin 2048, x0 (ix2 p k) = X (ix2 r k)) (h1 : ∀ k : Fin 2048, x2 (ix2 s k) = W (ix2 s k)) :
    k0_pay3 (F := Ideal) x0 x2 (ix2 p s) = Cert.Ssm.projOf X W (ix2 r s) := by
  rw [pay_bt]
  show _ = ∑ k : Fin 2048, X (ix2 r k) * W (ix2 s k)
  simp only [h0, h1]
theorem pay_ct_of (x0 : Vec Ideal S256x2048 .f32) (x3 : Vec Ideal S16x2048 .f32)
    (X : Cert.Ssm.Sbd.Idx → EReal) (W : Cert.Ssm.Ssd.Idx → EReal) (p : Fin 256) (s : Fin 16) (r : Fin 2048)
    (h0 : ∀ k : Fin 2048, x0 (ix2 p k) = X (ix2 r k)) (h1 : ∀ k : Fin 2048, x3 (ix2 s k) = W (ix2 s k)) :
    k0_pay4 (F := Ideal) x0 x3 (ix2 p s) = Cert.Ssm.projOf X W (ix2 r s) := by
  rw [pay_ct]
  show _ = ∑ k : Fin 2048, X (ix2 r k) * W (ix2 s k)
  simp only [h0, h1]

/-! ## From blocks to the arrays -/

theorem zero_off : (![0, 0] : Fin 2 → Nat) = fun _ => 0 := funext fun a => match a with
  | ⟨0, _⟩ => rfl
  | ⟨1, _⟩ => rfl

/-- The printed index maps over the grid: the block of x and of each output sits at block row t, column 0;
    the weights and the bias row are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of x at point t, at (p, k): x at row 256·t + p. -/
theorem x_blk (c : Dev nD) (t : Fin cfg0.N) (p : Fin 256) (k : Fin 2048) (r : Fin 2048) (hr : r.val = t.val * 256 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- The weights' and the bias row's blocks are the whole arrays. -/
theorem wd_blk (c : Dev nD) (t : Fin cfg0.N) (q : Fin 2048) (k : Fin 2048) :
    iblk0 V c 1 t (ix2 q k) = V c main_arg5 (ix2 q k) := by
  obtain ⟨-, -, e0, e1, -⟩ := idx_facts t
  show V c main_arg5 (((cfg0.win 1).blk t).view.emb (ix2 q k)) = V c main_arg5 (ix2 q k)
  refine congrArg _ (funext fun a => Fin.ext ?_)
  match a with
  | ⟨0, _⟩ => show win0_1.index t (0 : Fin 2) * 2048 + 1 * q.val = q.val; omega
  | ⟨1, _⟩ => show win0_1.index t (1 : Fin 2) * 2048 + 1 * k.val = k.val; omega
theorem wb_blk (c : Dev nD) (t : Fin cfg0.N) (s : Fin 16) (k : Fin 2048) :
    iblk0 V c 2 t (ix2 s k) = V c main_arg3 (ix2 s k) := by
  obtain ⟨-, -, -, -, e0, e1, -⟩ := idx_facts t
  show V c main_arg3 (((cfg0.win 2).blk t).view.emb (ix2 s k)) = V c main_arg3 (ix2 s k)
  refine congrArg _ (funext fun a => Fin.ext ?_)
  match a with
  | ⟨0, _⟩ => show win0_2.index t (0 : Fin 2) * 16 + 1 * s.val = s.val; omega
  | ⟨1, _⟩ => show win0_2.index t (1 : Fin 2) * 2048 + 1 * k.val = k.val; omega
theorem wc_blk (c : Dev nD) (t : Fin cfg0.N) (s : Fin 16) (k : Fin 2048) :
    iblk0 V c 3 t (ix2 s k) = V c main_arg4 (ix2 s k) := by
  obtain ⟨-, -, -, -, -, -, e0, e1, -⟩ := idx_facts t
  show V c main_arg4 (((cfg0.win 3).blk t).view.emb (ix2 s k)) = V c main_arg4 (ix2 s k)
  refine congrArg _ (funext fun a => Fin.ext ?_)
  match a with
  | ⟨0, _⟩ => show win0_3.index t (0 : Fin 2) * 16 + 1 * s.val = s.val; omega
  | ⟨1, _⟩ => show win0_3.index t (1 : Fin 2) * 2048 + 1 * k.val = k.val; omega
theorem bias_blk (c : Dev nD) (t : Fin cfg0.N) (q : Fin 2048) :
    iblk0 V c 4 t (ix2 0 q) = V c main_v2 (ix2 0 q) := by
  obtain ⟨-, -, -, -, -, -, -, -, e0, e1, -⟩ := idx_facts t
  show V c main_v2 (((cfg0.win 4).blk t).view.emb (ix2 0 q)) = V c main_v2 (ix2 0 q)
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * q.val = q.val; omega

/-- WHAT POINT t WRITES BACK to Δ's array is block t of Δ = softplus (x · W_Δᵀ + b_Δ). -/
theorem delta_flushed (c : Dev nD) (t : Fin cfg0.N) :
    (dat0 (F := Ideal) V c).flushed 5 t
      = ((cfg0.win 5).blk t).view.read (Elt Ideal) (Cert.Ssm.deltaOf (V c main_arg0) (V c main_arg5) (V c main_v2)) := by
  show (cfg0.win 5).cut (grid0.coords t) ((dat0 V c).after 5 t) = _
  rw [after0_5]
  unfold out0_5
  rw [View.canon_unit_zero zero_off]
  simp only [View.ld_unit_zero (S := S256x2048) zero_off, View.ld_unit_zero (S := S2048x2048) zero_off, View.ld_unit_zero (S := S1x2048) zero_off]
  funext j
  show k0_pay2 (F := Ideal) (iblk0 V c 0 t) (iblk0 V c 1 t) (iblk0 V c 4 t) j
    = Cert.Ssm.deltaOf (V c main_arg0) (V c main_arg5) (V c main_v2) (((cfg0.win 5).blk t).view.emb j)
  obtain ⟨p, q, rfl⟩ : ∃ (p : Fin 256) (q : Fin 2048), j = ix2 p q := ⟨j 0, j 1, eq_ix2 j⟩
  obtain ⟨-, -, -, -, -, -, -, -, -, -, e0, e1, -⟩ := idx_facts t
  have ht : t.val < 8 := t.isLt
  have hp : p.val < 256 := p.isLt
  have hemb : ((cfg0.win 5).blk t).view.emb (ix2 p q) = ix2 (⟨t.val * 256 + p.val, by omega⟩ : Fin 2048) q := by
    refine funext fun a => Fin.ext ?_
    match a with
    | ⟨0, _⟩ => show win0_5.index t (0 : Fin 2) * 256 + 1 * p.val = t.val * 256 + p.val; omega
    | ⟨1, _⟩ => show win0_5.index t (1 : Fin 2) * 2048 + 1 * q.val = q.val; omega
  rw [hemb]
  exact pay_delta_of _ _ _ _ _ _ p q _ (fun k => x_blk V c t p k _ rfl) (fun k => wd_blk V c t q k) (bias_blk V c t q)

/-- An index of delta's array is in point t's block iff each coordinate is in the block's range on its axis. -/
theorem delta_mem_blk (t : Fin cfg0.N) (i : S2048x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v4_0).slice (win0_5.rect t)).set ↔ _
  rw [View.set_slice_whole, Rect.mem_set_unit]
  exact Iff.rfl

/-- The eight blocks of 256 rows cover delta's array: row r is in the block of point r / 256. -/
theorem delta_cover (i : S2048x2048.Idx) :
    ∃ t : Fin cfg0.N, (cfg0.win 5).flush t = true ∧ i ∈ ((cfg0.win 5).blk t).view.set := by
  have hi0 : (i 0).val < 2048 := (i 0).isLt
  have hi1 : (i 1).val < 2048 := (i 1).isLt
  obtain ⟨t, ht⟩ : ∃ t : Fin cfg0.N, t.val = (i 0).val / 256 := ⟨⟨(i 0).val / 256, by show _ < 8; omega⟩, rfl⟩
  obtain ⟨-, -, -, -, -, -, -, -, -, -, e0, e1, -⟩ := idx_facts t
  refine ⟨t, flush0_5 t, ?_⟩
  rw [delta_mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

/-- WHAT POINT t WRITES BACK to bt's array is block t of x · W_Bᵀ. -/
theorem bt_flushed (c : Dev nD) (t : Fin cfg0.N) :
    (dat0 (F := Ideal) V c).flushed 6 t
      = ((cfg0.win 6).blk t).view.read (Elt Ideal) (Cert.Ssm.projOf (V c main_arg0) (V c main_arg3)) := by
  show (cfg0.win 6).cut (grid0.coords t) ((dat0 V c).after 6 t) = _
  rw [after0_6]
  unfold out0_6
  rw [View.canon_unit_zero zero_off]
  simp only [View.ld_unit_zero (S := S256x2048) zero_off, View.ld_unit_zero (S := S16x2048) zero_off]
  funext j
  show k0_pay3 (F := Ideal) (iblk0 V c 0 t) (iblk0 V c 2 t) j
    = Cert.Ssm.projOf (V c main_arg0) (V c main_arg3) (((cfg0.win 6).blk t).view.emb j)
  obtain ⟨p, s, rfl⟩ : ∃ (p : Fin 256) (s : Fin 16), j = ix2 p s := ⟨j 0, j 1, eq_ix2 j⟩
  obtain ⟨-, -, -, -, -, -, -, -, -, -, -, -, e0, e1, -⟩ := idx_facts t
  have ht : t.val < 8 := t.isLt
  have hp : p.val < 256 := p.isLt
  have hemb : ((cfg0.win 6).blk t).view.emb (ix2 p s) = ix2 (⟨t.val * 256 + p.val, by omega⟩ : Fin 2048) s := by
    refine funext fun a => Fin.ext ?_
    match a with
    | ⟨0, _⟩ => show win0_6.index t (0 : Fin 2) * 256 + 1 * p.val = t.val * 256 + p.val; omega
    | ⟨1, _⟩ => show win0_6.index t (1 : Fin 2) * 16 + 1 * s.val = s.val; omega
  rw [hemb]
  exact pay_bt_of _ _ _ _ p s _ (fun k => x_blk V c t p k _ rfl) (fun k => wb_blk V c t s k)

/-- An index of bt's array is in point t's block iff each coordinate is in the block's range on its axis. -/
theorem bt_mem_blk (t : Fin cfg0.N) (i : S2048x16.Idx) :
    i ∈ ((cfg0.win 6).blk t).view.set ↔ ∀ a : Fin 2, win0_6.index t a * S256x16.size a ≤ (i a).val ∧ (i a).val < win0_6.index t a * S256x16.size a + S256x16.size a := by
  show i ∈ ((View.whole main_v4_1).slice (win0_6.rect t)).set ↔ _
  rw [View.set_slice_whole, Rect.mem_set_unit]
  exact Iff.rfl

/-- The eight blocks of 256 rows cover bt's array: row r is in the block of point r / 256. -/
theorem bt_cover (i : S2048x16.Idx) :
    ∃ t : Fin cfg0.N, (cfg0.win 6).flush t = true ∧ i ∈ ((cfg0.win 6).blk t).view.set := by
  have hi0 : (i 0).val < 2048 := (i 0).isLt
  have hi1 : (i 1).val < 16 := (i 1).isLt
  obtain ⟨t, ht⟩ : ∃ t : Fin cfg0.N, t.val = (i 0).val / 256 := ⟨⟨(i 0).val / 256, by show _ < 8; omega⟩, rfl⟩
  obtain ⟨-, -, -, -, -, -, -, -, -, -, -, -, e0, e1, -⟩ := idx_facts t
  refine ⟨t, flush0_6 t, ?_⟩
  rw [bt_mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 16 ≤ (i 1).val ∧ (i 1).val < win0_6.index t (1 : Fin 2) * 16 + 16; omega

/-- WHAT POINT t WRITES BACK to ct's array is block t of x · W_Cᵀ. -/
theorem ct_flushed (c : Dev nD) (t : Fin cfg0.N) :
    (dat0 (F := Ideal) V c).flushed 7 t
      = ((cfg0.win 7).blk t).view.read (Elt Ideal) (Cert.Ssm.projOf (V c main_arg0) (V c main_arg4)) := by
  show (cfg0.win 7).cut (grid0.coords t) ((dat0 V c).after 7 t) = _
  rw [after0_7]
  unfold out0_7
  rw [View.canon_unit_zero zero_off]
  simp only [View.ld_unit_zero (S := S256x2048) zero_off, View.ld_unit_zero (S := S16x2048) zero_off]
  funext j
  show k0_pay4 (F := Ideal) (iblk0 V c 0 t) (iblk0 V c 3 t) j
    = Cert.Ssm.projOf (V c main_arg0) (V c main_arg4) (((cfg0.win 7).blk t).view.emb j)
  obtain ⟨p, s, rfl⟩ : ∃ (p : Fin 256) (s : Fin 16), j = ix2 p s := ⟨j 0, j 1, eq_ix2 j⟩
  obtain ⟨-, -, -, -, -, -, -, -, -, -, -, -, -, -, e0, e1⟩ := idx_facts t
  have ht : t.val < 8 := t.isLt
  have hp : p.val < 256 := p.isLt
  have hemb : ((cfg0.win 7).blk t).view.emb (ix2 p s) = ix2 (⟨t.val * 256 + p.val, by omega⟩ : Fin 2048) s := by
    refine funext fun a => Fin.ext ?_
    match a with
    | ⟨0, _⟩ => show win0_7.index t (0 : Fin 2) * 256 + 1 * p.val = t.val * 256 + p.val; omega
    | ⟨1, _⟩ => show win0_7.index t (1 : Fin 2) * 16 + 1 * s.val = s.val; omega
  rw [hemb]
  exact pay_ct_of _ _ _ _ p s _ (fun k => x_blk V c t p k _ rfl) (fun k => wc_blk V c t s k)

/-- An index of ct's array is in point t's block iff each coordinate is in the block's range on its axis. -/
theorem ct_mem_blk (t : Fin cfg0.N) (i : S2048x16.Idx) :
    i ∈ ((cfg0.win 7).blk t).view.set ↔ ∀ a : Fin 2, win0_7.index t a * S256x16.size a ≤ (i a).val ∧ (i a).val < win0_7.index t a * S256x16.size a + S256x16.size a := by
  show i ∈ ((View.whole main_v4_2).slice (win0_7.rect t)).set ↔ _
  rw [View.set_slice_whole, Rect.mem_set_unit]
  exact Iff.rfl

/-- The eight blocks of 256 rows cover ct's array: row r is in the block of point r / 256. -/
theorem ct_cover (i : S2048x16.Idx) :
    ∃ t : Fin cfg0.N, (cfg0.win 7).flush t = true ∧ i ∈ ((cfg0.win 7).blk t).view.set := by
  have hi0 : (i 0).val < 2048 := (i 0).isLt
  have hi1 : (i 1).val < 16 := (i 1).isLt
  obtain ⟨t, ht⟩ : ∃ t : Fin cfg0.N, t.val = (i 0).val / 256 := ⟨⟨(i 0).val / 256, by show _ < 8; omega⟩, rfl⟩
  obtain ⟨-, -, -, -, -, -, -, -, -, -, -, -, -, -, e0, e1⟩ := idx_facts t
  refine ⟨t, flush0_7 t, ?_⟩
  rw [ct_mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 16 ≤ (i 1).val ∧ (i 1).val < win0_7.index t (1 : Fin 2) * 16 + 16; omega

/-! ## The three arrays the first launch leaves -/

theorem delta_arr (c : Dev nD) :
    (dat0 (F := Ideal) V c).arrAt 5 cfg0.N = Cert.Ssm.deltaOf (V c main_arg0) (V c main_arg5) (V c main_v2) :=
  (dat0 (F := Ideal) V c).arrAt_eq_of_cover 5 (Cert.Ssm.deltaOf (V c main_arg0) (V c main_arg5) (V c main_v2))
    (fun t _ => delta_flushed V c t) delta_cover

theorem bt_arr (c : Dev nD) :
    (dat0 (F := Ideal) V c).arrAt 6 cfg0.N = Cert.Ssm.projOf (V c main_arg0) (V c main_arg3) :=
  (dat0 (F := Ideal) V c).arrAt_eq_of_cover 6 (Cert.Ssm.projOf (V c main_arg0) (V c main_arg3))
    (fun t _ => bt_flushed V c t) bt_cover

theorem ct_arr (c : Dev nD) :
    (dat0 (F := Ideal) V c).arrAt 7 cfg0.N = Cert.Ssm.projOf (V c main_arg0) (V c main_arg4) :=
  (dat0 (F := Ideal) V c).arrAt_eq_of_cover 7 (Cert.Ssm.projOf (V c main_arg0) (V c main_arg4))
    (fun t _ => ct_flushed V c t) ct_cover

end Cert.KernelIdeal.Proj

end
-- ==== Proof.Region1.lean ====
/-
  The second launch of the selective state-space step, read as arrays on the extended reals.

  The launch runs over a 32 × 16 grid. Point (i, j) holds batch rows 64 i .. 64 i + 63 and model columns
  128 j .. 128 j + 127 of x, Δ, the previous state h and the two results, the matching 128 rows of A, the matching 64 rows
  of Bt and Ct, and the matching 128 entries of the skip row d. On its blocks it computes, element by element,

    h'[p, q, s] = e^{Δ[p, q] · A[q, s]} · h[p, q, s] + (Δ[p, q] · Bt[p, s]) · x[p, q]
    y[p, q]     = Σ_s h'[p, q, s] · Ct[p, s] + d[q] · x[p, q]

  (the broadcasts along the missing axis of each operand read the operand at the remaining coordinates; the sum over the
  16 lanes starts from zero). Element (p, q) of point t's blocks is element (64 (t / 16) + p, 128 (t % 16) + q) of the
  arrays, so what point t writes back is block t of `Cert.Ssm.stateOf` / `Cert.Ssm.yOf` of the whole arrays; element
  (b, d) of a result lies in the block of point 16 (b / 64) + d / 128, so the blocks tile the results. Hence, for any
  contents of the arrays at the launch's entry, the state array ends at `stateOf` and the output at `yOf` of them
  (`state_arr`, `y_arr`).
-/
import proofs.«140655_j73134703116522_1_alg».proof.Proof.Gen.KernelIdeal.Frame
import proofs.«140655_j73134703116522_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scan

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Layout operations at coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The two payloads at an index -/

/-- The exponential of a vector at an index is the exponential of the element. -/
theorem exp_apply {s : Shape} {φ : FTy} (v : FVec Ideal s φ) (i : s.Idx) : exp v i = Ideal.exp (v i) := rfl

/-- THE STATE UPDATE at `(p, q, s)` of a block: `e^{Δ·A} · h + (Δ · Bt) · x`. -/
theorem state_block_apply (v0 v1 : Vec Ideal S64x128 .f32) (v3 : Vec Ideal S128x16 .f32) (v5 : Vec Ideal S64x16 .f32)
    (v9 : Vec Ideal S64x128x16 .f32) (p : Fin 64) (q : Fin 128) (s : Fin 16) :
    k1_pay1 v0 v1 v3 v5 v9 (ix3 p q s)
      = Ideal.exp (v1 (ix2 p q) * v3 (ix2 q s)) * v9 (ix3 p q s) + (v1 (ix2 p q) * v5 (ix2 p s)) * v0 (ix2 p q) := by
  unfold k1_pay1
  simp only [shapeCast_self]
  rw [addf_apply, mulf_apply, mulf_apply, mulf_apply, exp_apply, mulf_apply]
  rw [broadcastTo_ab1_abc_apply, broadcastTo_1bc_abc_apply, broadcastTo_a1c_abc_apply, broadcastTo_ab1_abc_apply,
    shapeCast_ab_ab1_apply, shapeCast_ab_1ab_apply, shapeCast_ac_a1c_apply, shapeCast_ab_ab1_apply]

/-- The lane sum of a `[64, 128, 16]` block over its last axis, into a zero accumulator, at `(p, q)`. -/
theorem lane_sum_apply (src : FVec Ideal S64x128x16 .f32) (h : S64x128x16.Reduces [2] S64x128) (hφ : FKind.Formats .f32)
    (hacc : (0x00000000#32 : BitVec 32) = FKind.add.neutral .f32 hφ) (p : Fin 64) (q : Fin 128) :
    multiReduction (F := Ideal) .add [2] S64x128 src 0x00000000#32 h hφ hacc (ix2 p q) = ∑ s : Fin 16, src (ix3 p q s) := by
  refine (Ideal.multiReduction_add_single src 0x00000000#32 h hφ hacc (ix2 p q)).trans ?_
  refine Finset.sum_congr rfl fun s _ => ?_
  exact congrArg src (funext fun a => Fin.ext (by match a with | ⟨0, _⟩ => rfl | ⟨1, _⟩ => rfl | ⟨2, _⟩ => rfl))

/-- THE READOUT at `(p, q)` of a block: `Σ_s h'[p, q, s] · Ct[p, s] + d[q] · x[p, q]`. -/
theorem y_block_apply (v0 v1 : Vec Ideal S64x128 .f32) (v3 : Vec Ideal S128x16 .f32) (v5 v7 : Vec Ideal S64x16 .f32)
    (v9 : Vec Ideal S64x128x16 .f32) (v10 : Vec Ideal S1x128 .f32) (p : Fin 64) (q : Fin 128) :
    k1_pay2 v0 v1 v3 v5 v7 v9 v10 (ix2 p q)
      = (∑ s : Fin 16, k1_pay1 v0 v1 v3 v5 v9 (ix3 p q s) * v7 (ix2 p s)) + v10 (ix2 (0 : Fin 1) q) * v0 (ix2 p q) := by
  unfold k1_pay2
  simp only [shapeCast_self]
  rw [addf_apply, mulf_apply, broadcastTo_1b_ab_apply]
  refine congrArg (· + _) ((lane_sum_apply _ _ _ _ p q).trans (Finset.sum_congr rfl fun s _ => ?_))
  rw [mulf_apply, broadcastTo_a1c_abc_apply, shapeCast_ac_a1c_apply]

/-! ## The grid: where each window's block sits -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Point `t` of the 32 × 16 grid writes state block `(t / 16, t % 16, 0)` … -/
theorem state_index : ∀ t : Fin cfg1.N,
    win1_8.index t (0 : Fin 3) = t.val / 16 ∧ win1_8.index t (1 : Fin 3) = t.val % 16 ∧ win1_8.index t (2 : Fin 3) = 0 :=
  (by decide +kernel : ∀ t : Fin grid1.N, _)
/-- … and y block `(t / 16, t % 16)`; -/
theorem y_index : ∀ t : Fin cfg1.N, win1_7.index t (0 : Fin 2) = t.val / 16 ∧ win1_7.index t (1 : Fin 2) = t.val % 16 :=
  (by decide +kernel : ∀ t : Fin grid1.N, _)
/-- it reads block `(t / 16, t % 16)` of x … -/
theorem x_index : ∀ t : Fin cfg1.N, win1_0.index t (0 : Fin 2) = t.val / 16 ∧ win1_0.index t (1 : Fin 2) = t.val % 16 :=
  (by decide +kernel : ∀ t : Fin grid1.N, _)
/-- … block `(t / 16, t % 16, 0)` of the previous state … -/
theorem h_index : ∀ t : Fin cfg1.N,
    win1_1.index t (0 : Fin 3) = t.val / 16 ∧ win1_1.index t (1 : Fin 3) = t.val % 16 ∧ win1_1.index t (2 : Fin 3) = 0 :=
  (by decide +kernel : ∀ t : Fin grid1.N, _)
/-- … block `(t % 16, 0)` of A … -/
theorem A_index : ∀ t : Fin cfg1.N, win1_2.index t (0 : Fin 2) = t.val % 16 ∧ win1_2.index t (1 : Fin 2) = 0 :=
  (by decide +kernel : ∀ t : Fin grid1.N, _)
/-- … block `(t / 16, 0)` of Bt … -/
theorem Bt_index : ∀ t : Fin cfg1.N, win1_3.index t (0 : Fin 2) = t.val / 16 ∧ win1_3.index t (1 : Fin 2) = 0 :=
  (by decide +kernel : ∀ t : Fin grid1.N, _)
/-- … and of Ct … -/
theorem Ct_index : ∀ t : Fin cfg1.N, win1_4.index t (0 : Fin 2) = t.val / 16 ∧ win1_4.index t (1 : Fin 2) = 0 :=
  (by decide +kernel : ∀ t : Fin grid1.N, _)
/-- … block `(t / 16, t % 16)` of Δ … -/
theorem delta_index : ∀ t : Fin cfg1.N, win1_5.index t (0 : Fin 2) = t.val / 16 ∧ win1_5.index t (1 : Fin 2) = t.val % 16 :=
  (by decide +kernel : ∀ t : Fin grid1.N, _)
/-- … and block `(0, t % 16)` of the skip row. -/
theorem skip_index : ∀ t : Fin cfg1.N, win1_6.index t (0 : Fin 2) = 0 ∧ win1_6.index t (1 : Fin 2) = t.val % 16 :=
  (by decide +kernel : ∀ t : Fin grid1.N, _)

/-- The batch row of the arrays that row `p` of point `t`'s blocks is: `64 (t / 16) + p`. -/
def rowOf (t : Fin cfg1.N) (p : Fin 64) : Fin 2048 :=
  ⟨t.val / 16 * 64 + p.val, by have : t.val < 512 := t.isLt; have := p.isLt; omega⟩

/-- The model column of the arrays that column `q` of point `t`'s blocks is: `128 (t % 16) + q`. -/
def colOf (t : Fin cfg1.N) (q : Fin 128) : Fin 2048 :=
  ⟨t.val % 16 * 128 + q.val, by have := q.isLt; omega⟩

/-! ## The windows' blocks at a point, at coordinates -/

/-- Block `(i, j)` of x holds rows `64 i ..`, columns `128 j ..`. -/
theorem x_block (c : Dev nD) (t : Fin cfg1.N) (p : Fin 64) (q : Fin 128) :
    (iblk1 (F := Ideal) V c 0 t : Vec Ideal S64x128 .f32) (ix2 p q)
      = (V c main_arg0 : S2048x2048.Idx → EReal) (ix2 (rowOf t p) (colOf t q)) := by
  obtain ⟨e0, e1⟩ := x_index t
  unfold iblk1
  rw [View.read_apply]
  show V c main_arg0 _ = V c main_arg0 _
  congr 1
  funext a
  apply Fin.ext
  match a with
  | ⟨0, _⟩ => show win1_0.index t (0 : Fin 2) * 64 + 1 * p.val = t.val / 16 * 64 + p.val; omega
  | ⟨1, _⟩ => show win1_0.index t (1 : Fin 2) * 128 + 1 * q.val = t.val % 16 * 128 + q.val; omega

/-- Block `(i, j, 0)` of the previous state holds rows `64 i ..`, columns `128 j ..`, every lane. -/
theorem h_block (c : Dev nD) (t : Fin cfg1.N) (p : Fin 64) (q : Fin 128) (s : Fin 16) :
    (iblk1 (F := Ideal) V c 1 t : Vec Ideal S64x128x16 .f32) (ix3 p q s)
      = (V c main_arg1 : S2048x2048x16.Idx → EReal) (ix3 (rowOf t p) (colOf t q) s) := by
  obtain ⟨e0, e1, e2⟩ := h_index t
  unfold iblk1
  rw [View.read_apply]
  show V c main_arg1 _ = V c main_arg1 _
  congr 1
  funext a
  apply Fin.ext
  match a with
  | ⟨0, _⟩ => show win1_1.index t (0 : Fin 3) * 64 + 1 * p.val = t.val / 16 * 64 + p.val; omega
  | ⟨1, _⟩ => show win1_1.index t (1 : Fin 3) * 128 + 1 * q.val = t.val % 16 * 128 + q.val; omega
  | ⟨2, _⟩ => show win1_1.index t (2 : Fin 3) * 16 + 1 * s.val = s.val; omega

/-- Block `(j, 0)` of A holds columns `128 j ..`, every lane. -/
theorem A_block (c : Dev nD) (t : Fin cfg1.N) (q : Fin 128) (s : Fin 16) :
    (iblk1 (F := Ideal) V c 2 t : Vec Ideal S128x16 .f32) (ix2 q s)
      = (V c main_v1 : S2048x16.Idx → EReal) (ix2 (colOf t q) s) := by
  obtain ⟨e0, e1⟩ := A_index t
  unfold iblk1
  rw [View.read_apply]
  show V c main_v1 _ = V c main_v1 _
  congr 1
  funext a
  apply Fin.ext
  match a with
  | ⟨0, _⟩ => show win1_2.index t (0 : Fin 2) * 128 + 1 * q.val = t.val % 16 * 128 + q.val; omega
  | ⟨1, _⟩ => show win1_2.index t (1 : Fin 2) * 16 + 1 * s.val = s.val; omega

/-- Block `(i, 0)` of Bt holds rows `64 i ..`, every lane. -/
theorem Bt_block (c : Dev nD) (t : Fin cfg1.N) (p : Fin 64) (s : Fin 16) :
    (iblk1 (F := Ideal) V c 3 t : Vec Ideal S64x16 .f32) (ix2 p s)
      = (V c main_v4_1 : S2048x16.Idx → EReal) (ix2 (rowOf t p) s) := by
  obtain ⟨e0, e1⟩ := Bt_index t
  unfold iblk1
  rw [View.read_apply]
  show V c main_v4_1 _ = V c main_v4_1 _
  congr 1
  funext a
  apply Fin.ext
  match a with
  | ⟨0, _⟩ => show win1_3.index t (0 : Fin 2) * 64 + 1 * p.val = t.val / 16 * 64 + p.val; omega
  | ⟨1, _⟩ => show win1_3.index t (1 : Fin 2) * 16 + 1 * s.val = s.val; omega

/-- Block `(i, 0)` of Ct holds rows `64 i ..`, every lane. -/
theorem Ct_block (c : Dev nD) (t : Fin cfg1.N) (p : Fin 64) (s : Fin 16) :
    (iblk1 (F := Ideal) V c 4 t : Vec Ideal S64x16 .f32) (ix2 p s)
      = (V c main_v4_2 : S2048x16.Idx → EReal) (ix2 (rowOf t p) s) := by
  obtain ⟨e0, e1⟩ := Ct_index t
  unfold iblk1
  rw [View.read_apply]
  show V c main_v4_2 _ = V c main_v4_2 _
  congr 1
  funext a
  apply Fin.ext
  match a with
  | ⟨0, _⟩ => show win1_4.index t (0 : Fin 2) * 64 + 1 * p.val = t.val / 16 * 64 + p.val; omega
  | ⟨1, _⟩ => show win1_4.index t (1 : Fin 2) * 16 + 1 * s.val = s.val; omega

/-- Block `(i, j)` of Δ holds rows `64 i ..`, columns `128 j ..`. -/
theorem delta_block (c : Dev nD) (t : Fin cfg1.N) (p : Fin 64) (q : Fin 128) :
    (iblk1 (F := Ideal) V c 5 t : Vec Ideal S64x128 .f32) (ix2 p q)
      = (V c main_v4_0 : S2048x2048.Idx → EReal) (ix2 (rowOf t p) (colOf t q)) := by
  obtain ⟨e0, e1⟩ := delta_index t
  unfold iblk1
  rw [View.read_apply]
  show V c main_v4_0 _ = V c main_v4_0 _
  congr 1
  funext a
  apply Fin.ext
  match a with
  | ⟨0, _⟩ => show win1_5.index t (0 : Fin 2) * 64 + 1 * p.val = t.val / 16 * 64 + p.val; omega
  | ⟨1, _⟩ => show win1_5.index t (1 : Fin 2) * 128 + 1 * q.val = t.val % 16 * 128 + q.val; omega

/-- Block `(0, j)` of the skip row holds columns `128 j ..`. -/
theorem skip_block (c : Dev nD) (t : Fin cfg1.N) (u : Fin 1) (q : Fin 128) :
    (iblk1 (F := Ideal) V c 6 t : Vec Ideal S1x128 .f32) (ix2 u q)
      = (V c main_v3 : S1x2048.Idx → EReal) (ix2 u (colOf t q)) := by
  obtain ⟨e0, e1⟩ := skip_index t
  unfold iblk1
  rw [View.read_apply]
  show V c main_v3 _ = V c main_v3 _
  congr 1
  funext a
  apply Fin.ext
  match a with
  | ⟨0, _⟩ => show win1_6.index t (0 : Fin 2) * 1 + 1 * u.val = u.val; omega
  | ⟨1, _⟩ => show win1_6.index t (1 : Fin 2) * 128 + 1 * q.val = t.val % 16 * 128 + q.val; omega

/-- Where element `(p, q, s)` of point `t`'s state block lies in the array. -/
theorem state_emb (t : Fin cfg1.N) (p : Fin 64) (q : Fin 128) (s : Fin 16) :
    (((cfg1.win 8).blk t).view.emb (ix3 p q s) : S2048x2048x16.Idx) = ix3 (rowOf t p) (colOf t q) s := by
  obtain ⟨e0, e1, e2⟩ := state_index t
  funext a
  apply Fin.ext
  match a with
  | ⟨0, _⟩ => show win1_8.index t (0 : Fin 3) * 64 + 1 * p.val = t.val / 16 * 64 + p.val; omega
  | ⟨1, _⟩ => show win1_8.index t (1 : Fin 3) * 128 + 1 * q.val = t.val % 16 * 128 + q.val; omega
  | ⟨2, _⟩ => show win1_8.index t (2 : Fin 3) * 16 + 1 * s.val = s.val; omega

/-- Where element `(p, q)` of point `t`'s y block lies in the array. -/
theorem y_emb (t : Fin cfg1.N) (p : Fin 64) (q : Fin 128) :
    (((cfg1.win 7).blk t).view.emb (ix2 p q) : S2048x2048.Idx) = ix2 (rowOf t p) (colOf t q) := by
  obtain ⟨e0, e1⟩ := y_index t
  funext a
  apply Fin.ext
  match a with
  | ⟨0, _⟩ => show win1_7.index t (0 : Fin 2) * 64 + 1 * p.val = t.val / 16 * 64 + p.val; omega
  | ⟨1, _⟩ => show win1_7.index t (1 : Fin 2) * 128 + 1 * q.val = t.val % 16 * 128 + q.val; omega

/-! ## What a point writes back -/

/-- POINT `t` WRITES BACK block `t` of the new state of the arrays as the launch finds them. -/
theorem state_flushed (c : Dev nD) (t : Fin cfg1.N) :
    (dat1 (F := Ideal) V c).flushed 8 t = ((cfg1.win 8).blk t).view.read (Elt Ideal)
      (Cert.Ssm.stateOf (V c main_arg0) (V c main_arg1) (V c main_v1) (V c main_v4_1) (V c main_v4_0)) := by
  show (cfg1.win 8).cut (grid1.coords t) ((dat1 (F := Ideal) V c).after 8 t) = _
  rw [after1_8]
  unfold out1_8
  rw [View.canon_unit_zero zeros3]
  simp only [View.ld_unit_zero (S := S64x128) zeros2, View.ld_unit_zero (S := S128x16) zeros2,
    View.ld_unit_zero (S := S64x16) zeros2, View.ld_unit_zero (S := S64x128x16) zeros3]
  funext j
  obtain ⟨p, q, s, rfl⟩ : ∃ (p : Fin 64) (q : Fin 128) (s : Fin 16), j = ix3 p q s := ⟨j 0, j 1, j 2, eq_ix3 j⟩
  show k1_pay1 (F := Ideal) _ _ _ _ _ (ix3 p q s) = Cert.Ssm.stateOf _ _ _ _ _ (((cfg1.win 8).blk t).view.emb (ix3 p q s))
  rw [state_block_apply, state_emb, x_block, h_block, A_block, Bt_block, delta_block]
  rfl

/-- POINT `t` WRITES BACK block `t` of the output y of the arrays as the launch finds them. -/
theorem y_flushed (c : Dev nD) (t : Fin cfg1.N) :
    (dat1 (F := Ideal) V c).flushed 7 t = ((cfg1.win 7).blk t).view.read (Elt Ideal)
      (Cert.Ssm.yOf (V c main_arg0) (V c main_arg1) (V c main_v1) (V c main_v4_1) (V c main_v4_2) (V c main_v4_0) (V c main_v3)) := by
  show (cfg1.win 7).cut (grid1.coords t) ((dat1 (F := Ideal) V c).after 7 t) = _
  rw [after1_7]
  unfold out1_7
  rw [View.canon_unit_zero zeros2]
  simp only [View.ld_unit_zero (S := S64x128) zeros2, View.ld_unit_zero (S := S128x16) zeros2,
    View.ld_unit_zero (S := S64x16) zeros2, View.ld_unit_zero (S := S64x128x16) zeros3, View.ld_unit_zero (S := S1x128) zeros2]
  funext j
  obtain ⟨p, q, rfl⟩ : ∃ (p : Fin 64) (q : Fin 128), j = ix2 p q := ⟨j 0, j 1, eq_ix2 j⟩
  show k1_pay2 (F := Ideal) _ _ _ _ _ _ _ (ix2 p q) = Cert.Ssm.yOf _ _ _ _ _ _ _ (((cfg1.win 7).blk t).view.emb (ix2 p q))
  rw [y_block_apply, y_emb, skip_block, x_block]
  refine congrArg (· + _) (Finset.sum_congr rfl fun s _ => ?_)
  rw [state_block_apply, x_block, h_block, A_block, Bt_block, delta_block, Ct_block]
  rfl

/-! ## The blocks tile the arrays -/

/-- An index of the state array is in point `t`'s block iff each coordinate is in the block's range on its axis. -/
theorem state_mem_blk (t : Fin cfg1.N) (i : S2048x2048x16.Idx) :
    i ∈ ((cfg1.win 8).blk t).view.set ↔ ∀ a : Fin 3, win1_8.index t a * S64x128x16.size a ≤ (i a).val
      ∧ (i a).val < win1_8.index t a * S64x128x16.size a + S64x128x16.size a := by
  show i ∈ ((View.whole main_v5_1).slice (win1_8.rect t)).set ↔ _
  rw [View.set_slice_whole, Rect.mem_set_unit]
  exact Iff.rfl

/-- An index of the y array is in point `t`'s block iff each coordinate is in the block's range on its axis. -/
theorem y_mem_blk (t : Fin cfg1.N) (i : S2048x2048.Idx) :
    i ∈ ((cfg1.win 7).blk t).view.set ↔ ∀ a : Fin 2, win1_7.index t a * S64x128.size a ≤ (i a).val
      ∧ (i a).val < win1_7.index t a * S64x128.size a + S64x128.size a := by
  show i ∈ ((View.whole main_v5_0).slice (win1_7.rect t)).set ↔ _
  rw [View.set_slice_whole, Rect.mem_set_unit]
  exact Iff.rfl

/-- Element `(b, d, s)` of the state is in the block of point `16 (b / 64) + d / 128`. -/
theorem state_cover (i : S2048x2048x16.Idx) :
    ∃ t : Fin cfg1.N, (cfg1.win 8).flush t = true ∧ i ∈ ((cfg1.win 8).blk t).view.set := by
  have hi0 : (i 0).val < 2048 := (i 0).isLt
  have hi1 : (i 1).val < 2048 := (i 1).isLt
  have hi2 : (i 2).val < 16 := (i 2).isLt
  have ht : (i 0).val / 64 * 16 + (i 1).val / 128 < cfg1.N := by show _ < 512; omega
  obtain ⟨e0, e1, e2⟩ := state_index ⟨_, ht⟩
  refine ⟨⟨_, ht⟩, flush1_8 _, ?_⟩
  rw [state_mem_blk]
  intro a
  match a with
  | ⟨0, _⟩ =>
    show win1_8.index ⟨_, ht⟩ (0 : Fin 3) * 64 ≤ (i 0).val ∧ (i 0).val < win1_8.index ⟨_, ht⟩ (0 : Fin 3) * 64 + 64
    rw [e0]; show ((i 0).val / 64 * 16 + (i 1).val / 128) / 16 * 64 ≤ (i 0).val ∧ (i 0).val < ((i 0).val / 64 * 16 + (i 1).val / 128) / 16 * 64 + 64; omega
  | ⟨1, _⟩ =>
    show win1_8.index ⟨_, ht⟩ (1 : Fin 3) * 128 ≤ (i 1).val ∧ (i 1).val < win1_8.index ⟨_, ht⟩ (1 : Fin 3) * 128 + 128
    rw [e1]; show ((i 0).val / 64 * 16 + (i 1).val / 128) % 16 * 128 ≤ (i 1).val ∧ (i 1).val < ((i 0).val / 64 * 16 + (i 1).val / 128) % 16 * 128 + 128; omega
  | ⟨2, _⟩ =>
    show win1_8.index ⟨_, ht⟩ (2 : Fin 3) * 16 ≤ (i 2).val ∧ (i 2).val < win1_8.index ⟨_, ht⟩ (2 : Fin 3) * 16 + 16
    rw [e2]; omega

/-- Element `(b, d)` of y is in the block of point `16 (b / 64) + d / 128`. -/
theorem y_cover (i : S2048x2048.Idx) :
    ∃ t : Fin cfg1.N, (cfg1.win 7).flush t = true ∧ i ∈ ((cfg1.win 7).blk t).view.set := by
  have hi0 : (i 0).val < 2048 := (i 0).isLt
  have hi1 : (i 1).val < 2048 := (i 1).isLt
  have ht : (i 0).val / 64 * 16 + (i 1).val / 128 < cfg1.N := by show _ < 512; omega
  obtain ⟨e0, e1⟩ := y_index ⟨_, ht⟩
  refine ⟨⟨_, ht⟩, flush1_7 _, ?_⟩
  rw [y_mem_blk]
  intro a
  match a with
  | ⟨0, _⟩ =>
    show win1_7.index ⟨_, ht⟩ (0 : Fin 2) * 64 ≤ (i 0).val ∧ (i 0).val < win1_7.index ⟨_, ht⟩ (0 : Fin 2) * 64 + 64
    rw [e0]; show ((i 0).val / 64 * 16 + (i 1).val / 128) / 16 * 64 ≤ (i 0).val ∧ (i 0).val < ((i 0).val / 64 * 16 + (i 1).val / 128) / 16 * 64 + 64; omega
  | ⟨1, _⟩ =>
    show win1_7.index ⟨_, ht⟩ (1 : Fin 2) * 128 ≤ (i 1).val ∧ (i 1).val < win1_7.index ⟨_, ht⟩ (1 : Fin 2) * 128 + 128
    rw [e1]; show ((i 0).val / 64 * 16 + (i 1).val / 128) % 16 * 128 ≤ (i 1).val ∧ (i 1).val < ((i 0).val / 64 * 16 + (i 1).val / 128) % 16 * 128 + 128; omega

/-! ## The arrays after the launch -/

theorem state_arr (c : Dev nD) :
    (dat1 (F := Ideal) V c).arrAt 8 cfg1.N
      = Cert.Ssm.stateOf (V c main_arg0) (V c main_arg1) (V c main_v1) (V c main_v4_1) (V c main_v4_0) :=
  (dat1 (F := Ideal) V c).arrAt_eq_of_cover 8 _ (fun t _ => state_flushed V c t) state_cover

theorem y_arr (c : Dev nD) :
    (dat1 (F := Ideal) V c).arrAt 7 cfg1.N
      = Cert.Ssm.yOf (V c main_arg0) (V c main_arg1) (V c main_v1) (V c main_v4_1) (V c main_v4_2) (V c main_v4_0) (V c main_v3) :=
  (dat1 (F := Ideal) V c).arrAt_eq_of_cover 7 _ (fun t _ => y_flushed V c t) y_cover

end Cert.KernelIdeal.Scan

end
-- ==== Proof.KValue.lean ====
/-
  The kernel program's two results as functions of its eight arguments.

  @main prepares A = -(e^{A_log}) and the two rows (b_Δ and the skip weights as [1, 2048]), then launches twice. The
  first launch leaves Δ = softplus (x · W_Δᵀ + b_Δ), Bt = x · W_Bᵀ and Ct = x · W_Cᵀ; the second reads them, with x,
  the previous state, A and the skip row, and leaves the new state and y. So the contents at each boundary of @main
  are: the arguments untouched throughout; after the host prologue A and the rows; after the first launch also Δ, Bt,
  Ct; after the second the results, which are then `Cert.Ssm.stateG` and `Cert.Ssm.yG` of the arguments.
-/
import proofs.«140655_j73134703116522_1_alg».proof.Proof.Gen.KernelIdeal.Frame
import proofs.«140655_j73134703116522_1_alg».proof.Proof.Spec
import proofs.«140655_j73134703116522_1_alg».proof.Proof.Region0
import proofs.«140655_j73134703116522_1_alg».proof.Proof.Region1
import proofs.«140655_j73134703116522_1_alg».proof.Proof.KRun
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the host prologue -/

/-- A vector of length 2048 reshaped to [1, 2048] is the vector as a row. -/
theorem row_cast (v : S2048.Idx → EReal) :
    (shapeCast S1x2048 v shapeCasts_S2048_S1x2048 : S1x2048.Idx → EReal) = Cert.Ssm.row v := by
  funext j
  refine shapeCast_apply v shapeCasts_S2048_S1x2048 j (ix1 (j 1)) ?_
  rw [Shape.rowMajor_val_one, Shape.rowMajor_val_two]
  have h0 : (j 0).val < 1 := (j 0).isLt
  show (j 1).val = (j 0).val * 2048 + (j 1).val
  omega

theorem pro_arg0 (c : Dev nD) : W1 m ρ c (Proc.devRef .tc main_arg0) = m ((c : Thread nD τ).loc main_arg0) := by
  dsimp only [W1, hostOps0]; after_results
theorem pro_arg1 (c : Dev nD) : W1 m ρ c (Proc.devRef .tc main_arg1) = m ((c : Thread nD τ).loc main_arg1) := by
  dsimp only [W1, hostOps0]; after_results
theorem pro_arg3 (c : Dev nD) : W1 m ρ c (Proc.devRef .tc main_arg3) = m ((c : Thread nD τ).loc main_arg3) := by
  dsimp only [W1, hostOps0]; after_results
theorem pro_arg4 (c : Dev nD) : W1 m ρ c (Proc.devRef .tc main_arg4) = m ((c : Thread nD τ).loc main_arg4) := by
  dsimp only [W1, hostOps0]; after_results
theorem pro_arg5 (c : Dev nD) : W1 m ρ c (Proc.devRef .tc main_arg5) = m ((c : Thread nD τ).loc main_arg5) := by
  dsimp only [W1, hostOps0]; after_results

/-- A = -(e^{A_log}). -/
theorem pro_A (c : Dev nD) :
    (W1 m ρ c (Proc.devRef .tc main_v1) : S2048x16.Idx → EReal) = Cert.Ssm.negExp (m ((c : Thread nD τ).loc main_arg2)) := by
  dsimp only [W1, hostOps0]; after_results; rfl

/-- b_Δ as a row. -/
theorem pro_brow (c : Dev nD) :
    (W1 m ρ c (Proc.devRef .tc main_v2) : S1x2048.Idx → EReal) = Cert.Ssm.row (m ((c : Thread nD τ).loc main_arg6)) := by
  dsimp only [W1, hostOps0]; after_results; exact row_cast _

/-- The skip weights as a row. -/
theorem pro_drow (c : Dev nD) :
    (W1 m ρ c (Proc.devRef .tc main_v3) : S1x2048.Idx → EReal) = Cert.Ssm.row (m ((c : Thread nD τ).loc main_arg7)) := by
  dsimp only [W1, hostOps0]; after_results; exact row_cast _

/-! ## After the first launch -/

/-- Δ of the arguments. -/
theorem mid_delta (c : Dev nD) :
    (W2 m ρ c (Proc.devRef .tc main_v4_0) : S2048x2048.Idx → EReal)
      = Cert.Ssm.deltaOf (m ((c : Thread nD τ).loc main_arg0)) (m ((c : Thread nD τ).loc main_arg5)) (Cert.Ssm.row (m ((c : Thread nD τ).loc main_arg6))) := by
  refine (W2_arr m ρ c 5).trans ((Cert.KernelIdeal.Proj.delta_arr (V1 m ρ) c).trans ?_)
  show Cert.Ssm.deltaOf (W1 m ρ c (Proc.devRef .tc main_arg0)) (W1 m ρ c (Proc.devRef .tc main_arg5)) (W1 m ρ c (Proc.devRef .tc main_v2)) = _
  rw [pro_arg0, pro_arg5, pro_brow]

/-- Bt of the arguments. -/
theorem mid_bt (c : Dev nD) :
    (W2 m ρ c (Proc.devRef .tc main_v4_1) : S2048x16.Idx → EReal) = Cert.Ssm.projOf (m ((c : Thread nD τ).loc main_arg0)) (m ((c : Thread nD τ).loc main_arg3)) := by
  refine (W2_arr m ρ c 6).trans ((Cert.KernelIdeal.Proj.bt_arr (V1 m ρ) c).trans ?_)
  show Cert.Ssm.projOf (W1 m ρ c (Proc.devRef .tc main_arg0)) (W1 m ρ c (Proc.devRef .tc main_arg3)) = _
  rw [pro_arg0, pro_arg3]

/-- Ct of the arguments. -/
theorem mid_ct (c : Dev nD) :
    (W2 m ρ c (Proc.devRef .tc main_v4_2) : S2048x16.Idx → EReal) = Cert.Ssm.projOf (m ((c : Thread nD τ).loc main_arg0)) (m ((c : Thread nD τ).loc main_arg4)) := by
  refine (W2_arr m ρ c 7).trans ((Cert.KernelIdeal.Proj.ct_arr (V1 m ρ) c).trans ?_)
  show Cert.Ssm.projOf (W1 m ρ c (Proc.devRef .tc main_arg0)) (W1 m ρ c (Proc.devRef .tc main_arg4)) = _
  rw [pro_arg0, pro_arg4]

/-- The first launch reads x through a window and writes nothing there. -/
theorem mid_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (pro_arg0 m ρ c)

/-- The first launch does not touch the previous state, A or the skip row. -/
theorem mid_arg1 (c : Dev nD) : W2 m ρ c (Proc.devRef .tc main_arg1) = m ((c : Thread nD τ).loc main_arg1) :=
  (W2_of_ne m ρ c main_arg1 (by decide)).trans (pro_arg1 m ρ c)
theorem mid_A (c : Dev nD) : (W2 m ρ c (Proc.devRef .tc main_v1) : S2048x16.Idx → EReal) = Cert.Ssm.negExp (m ((c : Thread nD τ).loc main_arg2)) :=
  (W2_of_ne m ρ c main_v1 (by decide)).trans (pro_A m ρ c)
theorem mid_drow (c : Dev nD) : (W2 m ρ c (Proc.devRef .tc main_v3) : S1x2048.Idx → EReal) = Cert.Ssm.row (m ((c : Thread nD τ).loc main_arg7)) :=
  (W2_of_ne m ρ c main_v3 (by decide)).trans (pro_drow m ρ c)

/-! ## After the second launch -/

/-- The new state is `stateG` of the arguments. -/
theorem out_state (c : Dev nD) :
    (W3 m ρ c (Proc.devRef .tc main_v5_1) : S2048x2048x16.Idx → EReal)
      = Cert.Ssm.stateG (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W3_arr m ρ c 8).trans ((Cert.KernelIdeal.Scan.state_arr (V2 m ρ) c).trans ?_)
  show Cert.Ssm.stateOf (W2 m ρ c (Proc.devRef .tc main_arg0)) (W2 m ρ c (Proc.devRef .tc main_arg1)) (W2 m ρ c (Proc.devRef .tc main_v1))
    (W2 m ρ c (Proc.devRef .tc main_v4_1)) (W2 m ρ c (Proc.devRef .tc main_v4_0)) = _
  rw [mid_arg0, mid_arg1, mid_A, mid_bt, mid_delta]
  rfl

/-- y is `yG` of the arguments. -/
theorem out_y (c : Dev nD) :
    (W3 m ρ c (Proc.devRef .tc main_v5_0) : S2048x2048.Idx → EReal)
      = Cert.Ssm.yG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W3_arr m ρ c 7).trans ((Cert.KernelIdeal.Scan.y_arr (V2 m ρ) c).trans ?_)
  show Cert.Ssm.yOf (W2 m ρ c (Proc.devRef .tc main_arg0)) (W2 m ρ c (Proc.devRef .tc main_arg1)) (W2 m ρ c (Proc.devRef .tc main_v1))
    (W2 m ρ c (Proc.devRef .tc main_v4_1)) (W2 m ρ c (Proc.devRef .tc main_v4_2)) (W2 m ρ c (Proc.devRef .tc main_v4_0))
    (W2 m ρ c (Proc.devRef .tc main_v3)) = _
  rw [mid_arg0, mid_arg1, mid_A, mid_bt, mid_ct, mid_delta, mid_drow]
  rfl

/-! ## The run -/

/-- Every weakly fair execution of the kernel program terminates, nothing faulting, with y and the new state at the
    specification's functions of the arguments, and the arguments unchanged. -/
theorem run : θ_run defs (onTc (τ := τ) (main (F := Ideal))) ⟨m, fun _ => 0, ρ⟩ (fun r => ∀ c : Dev nD,
      r.2.mem ((c.tc : Thread nD τ).loc main_v5_0)
        = Cert.Ssm.yG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v5_1)
        = Cert.Ssm.stateG (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_y m ρ c), (h c).2.1.trans (out_state m ρ c), (h c).2.2⟩)
    (Cert.KernelIdeal.GenRun.run_named m ρ)

end Cert.KernelIdeal.Whole

end
-- ==== Proof.RefSpec.lean ====
/-
  The reference program computes the specification of the selective state-space step.

  Read at the extended reals, with x : [B, D], the previous state h : [B, D, S], A_log : [D, S], W_B, W_C : [S, D],
  W_Δ : [D, D] and the vectors b_Δ, d : [D], the reference leaves

    A[d, s]     = -(e^{A_log[d, s]})
    Bt[b, s]    = Σ_k x[b, k] · W_B[s, k]          Ct[b, s] = Σ_k x[b, k] · W_C[s, k]
    Δ[b, d]     = softplus (Σ_k x[b, k] · W_Δ[d, k] + b_Δ[d])
    h'[b, d, s] = e^{Δ[b, d] · A[d, s]} · h[b, d, s] + (Δ[b, d] · Bt[b, s]) · x[b, d]
    y[b, d]     = 0 + Σ_s h'[b, d, s] · Ct[b, s] + d[d] · x[b, d]

  Each of the four intermediate arrays is first identified with the specification's (`ref_a`, `ref_bt`, `ref_ct`,
  `ref_delta`): a transposed weight read at [k, n] is the weight at [n, k], a vector broadcast to a row and then to the
  matrix is read at its column, and the program's softplus has a dead not-a-number guard and subtracts and adds zero.
  The new state at a point [b, d, s] is then the specification's `stateAt` of those arrays (`ref_state`), every
  broadcast along an axis of size one being read at the remaining coordinates, and the output is the sum over s of
  the new state against Ct, from the initial value zero, plus the skip term (`ref_y`).
-/
import proofs.«140655_j73134703116522_1_alg».proof.Proof.Gen.ReferenceIdeal.Read
import proofs.«140655_j73134703116522_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefSpec

open Idealize.ShloMosaic Idealize.ShloMosaic.TcCoe Idealize.ShloMosaic.ValueIdx Idealize.SL.Sem
open Cert.ReferenceIdeal Cert.ReferenceIdeal.Read

/-- A = -(e^{A_log}). -/
theorem ref_a (x2 : S2048x16.Idx → EReal) : val_main_v1 (F := Ideal) x2 = Cert.Ssm.negExp x2 := by
  funext j
  rw [val_main_v1_apply, val_main_v0_apply]
  simp only [Ideal.hostNegf_def, Ideal.negf_def, Ideal.hostUnary_exp_def]
  rfl

/-- Bt = x · W_Bᵀ: the transposed weight at [k, s] is W_B[s, k]. -/
theorem ref_bt (x0 : S2048x2048.Idx → EReal) (x3 : S16x2048.Idx → EReal) :
    val_main_v3 (F := Ideal) x0 x3 = Cert.Ssm.projOf x0 x3 := by
  funext j
  obtain ⟨b, s, rfl⟩ : ∃ (b : Fin 2048) (s : Fin 16), j = ix2 b s := ⟨j 0, j 1, eq_ix2 j⟩
  rw [val_main_v3_apply]
  unfold Cert.Ssm.projOf Cert.Ssm.dotRow
  refine Finset.sum_congr rfl fun k _ => ?_
  have e1 : lidx_main_v3 (ix2 b s) k = ix2 b k :=
    funext fun a => Fin.ext (by match a with | ⟨0, _⟩ => rfl | ⟨1, _⟩ => rfl)
  have e2 : idx_main_v2 (ridx_main_v3 (ix2 b s) k) = ix2 s k :=
    funext fun a => Fin.ext (by match a with | ⟨0, _⟩ => rfl | ⟨1, _⟩ => rfl)
  rw [val_main_v2_apply, e1, e2]

/-- Ct = x · W_Cᵀ. -/
theorem ref_ct (x0 : S2048x2048.Idx → EReal) (x4 : S16x2048.Idx → EReal) :
    val_main_v5 (F := Ideal) x0 x4 = Cert.Ssm.projOf x0 x4 := by
  funext j
  obtain ⟨b, s, rfl⟩ : ∃ (b : Fin 2048) (s : Fin 16), j = ix2 b s := ⟨j 0, j 1, eq_ix2 j⟩
  rw [val_main_v5_apply]
  unfold Cert.Ssm.projOf Cert.Ssm.dotRow
  refine Finset.sum_congr rfl fun k _ => ?_
  have e1 : lidx_main_v5 (ix2 b s) k = ix2 b k :=
    funext fun a => Fin.ext (by match a with | ⟨0, _⟩ => rfl | ⟨1, _⟩ => rfl)
  have e2 : idx_main_v4 (ridx_main_v5 (ix2 b s) k) = ix2 s k :=
    funext fun a => Fin.ext (by match a with | ⟨0, _⟩ => rfl | ⟨1, _⟩ => rfl)
  rw [val_main_v4_apply, e1, e2]

/-- The argument of the softplus: Σ_k x[b, k] · W_Δ[d, k] + b_Δ[d]. -/
theorem ref_pre (x0 x5 : S2048x2048.Idx → EReal) (x6 : S2048.Idx → EReal) (b d : Fin 2048) :
    val_main_v10 (F := Ideal) x0 x5 x6 (ix2 b d)
      = Cert.Ssm.dotRow x0 x5 b d + Cert.Ssm.row x6 (ix2 0 d) := by
  rw [val_main_v10_apply, val_main_v7_apply, val_main_v9_apply, val_main_v8_apply]
  unfold Cert.Ssm.dotRow Cert.Ssm.row
  simp only [Ideal.addf_def]
  refine congrArg₂ (· + ·) (Finset.sum_congr rfl fun k _ => ?_) ?_
  · have e1 : lidx_main_v7 (ix2 b d) k = ix2 b k :=
      funext fun a => Fin.ext (by match a with | ⟨0, _⟩ => rfl | ⟨1, _⟩ => rfl)
    have e2 : idx_main_v6 (ridx_main_v7 (ix2 b d) k) = ix2 d k :=
      funext fun a => Fin.ext (by match a with | ⟨0, _⟩ => rfl | ⟨1, _⟩ => rfl)
    rw [val_main_v6_apply, e1, e2]
  · exact congrArg x6 (funext fun a => Fin.ext (by match a with | ⟨0, _⟩ => rfl))

/-- Δ = softplus (x · W_Δᵀ + b_Δ). -/
theorem ref_delta (x0 x5 : S2048x2048.Idx → EReal) (x6 : S2048.Idx → EReal) :
    val_main_v11 (F := Ideal) x0 x5 x6 = Cert.Ssm.deltaOf x0 x5 (Cert.Ssm.row x6) := by
  funext j
  obtain ⟨b, d, rfl⟩ : ∃ (b : Fin 2048) (d : Fin 2048), j = ix2 b d := ⟨j 0, j 1, eq_ix2 j⟩
  rw [val_main_v11_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, ref_pre]
  simp only [Ideal.addf_def, Ideal.subf_def, Ideal.maximumf_def, Ideal.hostNegf_def, Ideal.negf_def,
    Ideal.hostAbsf_def, Ideal.absf_def, Ideal.hostUnary_exp_def, Ideal.hostUnary_log1p_def, Ideal.cmpf_def,
    Ideal.ofBits_def, Ideal.ofBits_zero_f32]
  exact Cert.Ssm.softplus_host _

/-- The new state at a point. -/
theorem ref_state_at (x0 : S2048x2048.Idx → EReal) (x1 : S2048x2048x16.Idx → EReal) (x2 : S2048x16.Idx → EReal)
    (x3 : S16x2048.Idx → EReal) (x5 : S2048x2048.Idx → EReal) (x6 : S2048.Idx → EReal)
    (b d : Fin 2048) (s : Fin 16) :
    val_main_v27 (F := Ideal) x0 x1 x2 x3 x5 x6 (ix3 b d s)
      = Cert.Ssm.stateAt x0 x1 (Cert.Ssm.negExp x2) (Cert.Ssm.projOf x0 x3)
          (Cert.Ssm.deltaOf x0 x5 (Cert.Ssm.row x6)) b d s := by
  have e12 : idx_main_v12 (idx_main_v14 (ix3 b d s)) = ix2 b d :=
    funext fun a => Fin.ext (by match a with | ⟨0, _⟩ => rfl | ⟨1, _⟩ => rfl)
  have e13 : idx_main_v13 (idx_main_v15 (ix3 b d s)) = ix2 d s :=
    funext fun a => Fin.ext (by match a with | ⟨0, _⟩ => rfl | ⟨1, _⟩ => rfl)
  have e18 : idx_main_v18 (idx_main_v20 (ix3 b d s)) = ix2 b d :=
    funext fun a => Fin.ext (by match a with | ⟨0, _⟩ => rfl | ⟨1, _⟩ => rfl)
  have e19 : idx_main_v19 (idx_main_v21 (ix3 b d s)) = ix2 b s :=
    funext fun a => Fin.ext (by match a with | ⟨0, _⟩ => rfl | ⟨1, _⟩ => rfl)
  have e24 : idx_main_v24 (idx_main_v25 (ix3 b d s)) = ix2 b d :=
    funext fun a => Fin.ext (by match a with | ⟨0, _⟩ => rfl | ⟨1, _⟩ => rfl)
  rw [val_main_v27_apply, val_main_v23_apply, val_main_v17_apply, val_main_v16_apply, val_main_v14_apply,
    val_main_v12_apply, val_main_v15_apply, val_main_v13_apply, val_main_v26_apply, val_main_v22_apply,
    val_main_v20_apply, val_main_v18_apply, val_main_v21_apply, val_main_v19_apply, val_main_v25_apply,
    val_main_v24_apply, e12, e13, e18, e19, e24, ref_delta, ref_bt, ref_a]
  simp only [Ideal.addf_def, Ideal.mulf_def, Ideal.hostUnary_exp_def]
  rfl

theorem ref_state (x0 : S2048x2048.Idx → EReal) (x1 : S2048x2048x16.Idx → EReal) (x2 : S2048x16.Idx → EReal)
    (x3 : S16x2048.Idx → EReal) (x5 : S2048x2048.Idx → EReal) (x6 : S2048.Idx → EReal) :
    val_main_v27 (F := Ideal) x0 x1 x2 x3 x5 x6 = Cert.Ssm.stateG x0 x1 x2 x3 x5 x6 := by
  funext i
  obtain ⟨b, d, s, rfl⟩ : ∃ (b : Fin 2048) (d : Fin 2048) (s : Fin 16), i = ix3 b d s := ⟨i 0, i 1, i 2, eq_ix3 i⟩
  exact ref_state_at x0 x1 x2 x3 x5 x6 b d s

/-- One summand of the output: the new state at [b, d, s] against Ct[b, s]. -/
theorem ref_term (x0 : S2048x2048.Idx → EReal) (x1 : S2048x2048x16.Idx → EReal) (x2 : S2048x16.Idx → EReal)
    (x3 x4 : S16x2048.Idx → EReal) (x5 : S2048x2048.Idx → EReal) (x6 : S2048.Idx → EReal)
    (b d : Fin 2048) (s : Fin 16) :
    val_main_v30 (F := Ideal) x0 x1 x2 x3 x4 x5 x6 (ix3 b d s)
      = Cert.Ssm.stateAt x0 x1 (Cert.Ssm.negExp x2) (Cert.Ssm.projOf x0 x3)
          (Cert.Ssm.deltaOf x0 x5 (Cert.Ssm.row x6)) b d s * Cert.Ssm.projOf x0 x4 (ix2 b s) := by
  have e28 : idx_main_v28 (idx_main_v29 (ix3 b d s)) = ix2 b s :=
    funext fun a => Fin.ext (by match a with | ⟨0, _⟩ => rfl | ⟨1, _⟩ => rfl)
  rw [val_main_v30_apply, ref_state_at, val_main_v29_apply, val_main_v28_apply, e28, ref_ct]
  rfl

theorem ref_y (x0 : S2048x2048.Idx → EReal) (x1 : S2048x2048x16.Idx → EReal) (x2 : S2048x16.Idx → EReal)
    (x3 x4 : S16x2048.Idx → EReal) (x5 : S2048x2048.Idx → EReal) (x6 x7 : S2048.Idx → EReal) :
    val_main_v35 (F := Ideal) x0 x1 x2 x3 x4 x5 x6 x7 = Cert.Ssm.yG x0 x1 x2 x3 x4 x5 x6 x7 := by
  funext j
  obtain ⟨b, d, rfl⟩ : ∃ (b : Fin 2048) (d : Fin 2048), j = ix2 b d := ⟨j 0, j 1, eq_ix2 j⟩
  rw [val_main_v35_apply, val_main_v31_apply, val_main_cst_apply, val_main_v34_apply, val_main_v33_apply,
    val_main_v32_apply]
  simp only [Ideal.addf_def, Ideal.mulf_def, Ideal.ofBits_def, Ideal.ofBits_zero_f32, zero_add]
  refine congrArg₂ (· + ·) (Finset.sum_congr rfl fun k _ => ?_) ?_
  · have e31 : idx_main_v31 (ix2 b d) k = ix3 b d k :=
      funext fun a => Fin.ext (by match a with | ⟨0, _⟩ => rfl | ⟨1, _⟩ => rfl | ⟨2, _⟩ => rfl)
    rw [e31, ref_term]
  · exact congrArg (· * x0 (ix2 b d)) (congrArg x7 (funext fun a => Fin.ext (by match a with | ⟨0, _⟩ => rfl)))

end Cert.ReferenceIdeal.RefSpec

end
-- ==== Proof.lean ====
/-
  The certificate of the selective state-space step: Δ = softplus (x · W_Δᵀ + b_Δ), Bt = x · W_Bᵀ, Ct = x · W_Cᵀ,
  A = -(e^{A_log}), h' = e^{Δ·A} · h + (Δ · Bt) · x, y = Σ_s h' · Ct + d · x, computed by the kernel in two launches
  (the projections, then the state update and the readout) and by the reference in one host program.

  On the extended reals both programs compute the same expression tree entry by entry: a change of float format is the
  identity, a matrix product into a zero accumulator and the host's product are the same sum over k, the lane sum and
  the host's sum the same sum over s, and the softplus of both is `max z 0 + log (1 + e^{-|z|})` once the NaN test
  `a ≠ a` is read as false. No algebraic law rearranges anything, so the precondition is never opened.

  `Cert.Ssm` (Proof/Spec.lean) states the two results as functions of the eight arguments; Proof/Region0.lean and
  Proof/Region1.lean read each launch's output arrays as those functions of the launch's inputs; Proof/KValue.lean
  follows the arrays through @main; Proof/RefSpec.lean reads the reference's stages as the same functions.
-/
import proofs.«140655_j73134703116522_1_alg».proof.Defs
import proofs.«140655_j73134703116522_1_alg».proof.Proof.Gen.Kernel
import proofs.«140655_j73134703116522_1_alg».proof.Proof.Gen.Kernel.Skeleton
import proofs.«140655_j73134703116522_1_alg».proof.Proof.Gen.Kernel.Launch
import proofs.«140655_j73134703116522_1_alg».proof.Proof.Gen.Kernel.Points
import proofs.«140655_j73134703116522_1_alg».proof.Proof.Gen.Kernel.Frame
import proofs.«140655_j73134703116522_1_alg».proof.Proof.Gen.KernelIdeal
import proofs.«140655_j73134703116522_1_alg».proof.Proof.Gen.KernelIdeal.Skeleton
import proofs.«140655_j73134703116522_1_alg».proof.Proof.Gen.KernelIdeal.Launch
import proofs.«140655_j73134703116522_1_alg».proof.Proof.Gen.KernelIdeal.Points
import proofs.«140655_j73134703116522_1_alg».proof.Proof.Gen.KernelIdeal.Frame
import proofs.«140655_j73134703116522_1_alg».proof.Proof.Gen.ReferenceIdeal
import proofs.«140655_j73134703116522_1_alg».proof.Proof.Gen.ReferenceIdeal.Run
import proofs.«140655_j73134703116522_1_alg».proof.Proof.Gen.ReferenceIdeal.Read
import proofs.«140655_j73134703116522_1_alg».proof.Proof.Gen.Pre_finite_inputs
import proofs.«140655_j73134703116522_1_alg».proof.Proof.Spec
import proofs.«140655_j73134703116522_1_alg».proof.Proof.KValue
import proofs.«140655_j73134703116522_1_alg».proof.Proof.RefSpec
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- So does its reading on the extended reals. -/
theorem frame_ki : @Cert.frame_KernelIdeal Cert.KernelIdeal.Gen.facts Cert.Pre_finite_inputs.Gen.facts :=
  fun m ρ _ => Cert.KernelIdeal.Gen.frame m ρ

/-- The reference runs and keeps its arguments: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with y and the new state at the specification's functions of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, Cert.ReferenceIdeal.RefSpec.ref_y,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [Cert.ReferenceIdeal.Read.val_main_v27_eq, Cert.ReferenceIdeal.RefSpec.ref_state,
      (hagree c).1, (hagree c).2.1, (hagree c).2.2.1, (hagree c).2.2.2.1, (hagree c).2.2.2.2.2.1,
      (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
